-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100x640 : Shape := ⟨3, ![256, 100, 640]⟩
abbrev S256x300x640 : Shape := ⟨3, ![256, 300, 640]⟩
abbrev S256x100 : Shape := ⟨2, ![256, 100]⟩
abbrev S256x300 : Shape := ⟨2, ![256, 300]⟩
abbrev S_ : Shape := ⟨0, ![]⟩
abbrev S256x100x1 : Shape := ⟨3, ![256, 100, 1]⟩
abbrev S1x1x20 : Shape := ⟨3, ![1, 1, 20]⟩
abbrev S256x100x20 : Shape := ⟨3, ![256, 100, 20]⟩
abbrev S256x20 : Shape := ⟨2, ![256, 20]⟩

class Facts : Prop where
  bcast_S_S256x100x640 : S_.BroadcastsInDim S256x100x640 (![] : Fin 0 → Fin S256x100x640.rank)
  reducesTo_S256x100x640_S_d0_1_2 : S256x100x640.ReducesTo [0, 1, 2] S_
  h_S_ : 0 < S_.numel
  bcast_S_S256x300x640 : S_.BroadcastsInDim S256x300x640 (![] : Fin 0 → Fin S256x300x640.rank)
  reducesTo_S256x300x640_S_d0_1_2 : S256x300x640.ReducesTo [0, 1, 2] S_
  bcast_S_S256x300 : S_.BroadcastsInDim S256x300 (![] : Fin 0 → Fin S256x300.rank)
  reducesTo_S256x300_S_d0_1 : S256x300.ReducesTo [0, 1] S_
  bcast_S256x100_S256x100x1_0_1 : S256x100.BroadcastsInDim S256x100x1 (![0, 1] : Fin 2 → Fin S256x100x1.rank)
  bcast_S256x100x1_S256x100x20_0_1_2 : S256x100x1.BroadcastsInDim S256x100x20 (![0, 1, 2] : Fin 3 → Fin S256x100x20.rank)
  bcast_S1x1x20_S256x100x20_0_1_2 : S1x1x20.BroadcastsInDim S256x100x20 (![0, 1, 2] : Fin 3 → Fin S256x100x20.rank)
  reducesTo_S256x100x20_S256x20_d1 : S256x100x20.ReducesTo [1] S256x20
  reducesTo_S256x20_S_d0_1 : S256x20.ReducesTo [0, 1] S_

variable [Facts]

def fn_part1 {F : FTy → Type} [FloatOps F] (main_v15 : IVec S_ 1) (main_v16 : IVec S256x100x1 32) : IVec S_ 1 :=
  let main_v17 : IVec S1x1x20 32 := iotaInDim S1x1x20 32 2
  let main_v18 : IVec S256x100x20 32 := broadcastInDim S256x100x20 ![0, 1, 2] bcast_S256x100x1_S256x100x20_0_1_2 main_v16
  let main_v19 : IVec S256x100x20 32 := broadcastInDim S256x100x20 ![0, 1, 2] bcast_S1x1x20_S256x100x20_0_1_2 main_v17
  let main_v20 : IVec S256x100x20 1 := cmpi .eq main_v18 main_v19
  let main_c_5 : IVec S_ 1 := constantI S_ 1 0#1
  let main_v21 : IVec S256x20 1 := (fun x v => Host.reduce IntOp.ori x v reducesTo_S256x100x20_S256x20_d1 h_S_) main_v20 main_c_5
  let main_c_6 : IVec S_ 1 := constantI S_ 1 1#1
  let main_v22 : IVec S_ 1 := (fun x v => Host.reduce IntOp.andi x v reducesTo_S256x20_S_d0_1 h_S_) main_v21 main_c_6
  let main_v23 : IVec S_ 1 := andi main_v15 main_v22
  main_v23

def fn {F : FTy → Type} [FloatOps F] (main_arg0 : FVec F S256x100x640 .f32) (main_arg1 : FVec F S256x300x640 .f32) (main_arg2 : IVec S256x100 32) (main_arg3 : IVec S256x300 32) : IVec S_ 1 :=
  let main_v0 : FVec F S256x100x640 .f32 := Host.absf main_arg0
  let main_cst : FVec F S_ .f32 := constant S_ .f32 0x7F800000#32
  let main_v1 : FVec F S256x100x640 .f32 := broadcastInDim S256x100x640 ![] bcast_S_S256x100x640 main_cst
  let main_v2 : IVec S256x100x640 1 := cmpf .olt main_v0 main_v1
  let main_c : IVec S_ 1 := constantI S_ 1 1#1
  let main_v3 : IVec S_ 1 := (fun x v => Host.reduce IntOp.andi x v reducesTo_S256x100x640_S_d0_1_2 h_S_) main_v2 main_c
  let main_v4 : FVec F S256x300x640 .f32 := Host.absf main_arg1
  let main_cst_0 : FVec F S_ .f32 := constant S_ .f32 0x7F800000#32
  let main_v5 : FVec F S256x300x640 .f32 := broadcastInDim S256x300x640 ![] bcast_S_S256x300x640 main_cst_0
  let main_v6 : IVec S256x300x640 1 := cmpf .olt main_v4 main_v5
  let main_c_1 : IVec S_ 1 := constantI S_ 1 1#1
  let main_v7 : IVec S_ 1 := (fun x v => Host.reduce IntOp.andi x v reducesTo_S256x300x640_S_d0_1_2 h_S_) main_v6 main_c_1
  let main_v8 : IVec S_ 1 := andi main_v3 main_v7
  let main_c_2 : IVec S_ 32 := constantI S_ 32 0#32
  let main_v9 : IVec S256x300 32 := broadcastInDim S256x300 ![] bcast_S_S256x300 main_c_2
  let main_v10 : IVec S256x300 1 := cmpi .sge main_arg3 main_v9
  let main_c_3 : IVec S_ 32 := constantI S_ 32 20#32
  let main_v11 : IVec S256x300 32 := broadcastInDim S256x300 ![] bcast_S_S256x300 main_c_3
  let main_v12 : IVec S256x300 1 := cmpi .slt main_arg3 main_v11
  let main_v13 : IVec S256x300 1 := andi main_v10 main_v12
  let main_c_4 : IVec S_ 1 := constantI S_ 1 1#1
  let main_v14 : IVec S_ 1 := (fun x v => Host.reduce IntOp.andi x v reducesTo_S256x300_S_d0_1 h_S_) main_v13 main_c_4
  let main_v15 : IVec S_ 1 := andi main_v8 main_v14
  let main_v16 : IVec S256x100x1 32 := broadcastInDim S256x100x1 ![0, 1] bcast_S256x100_S256x100x1_0_1 main_arg2
  fn_part1 (F := F) main_v15 main_v16
-- ==== Kernel.lean ====
abbrev S256x100x640 : Shape := ⟨3, ![256, 100, 640]⟩
abbrev S256x300x640 : Shape := ⟨3, ![256, 300, 640]⟩
abbrev S256x100 : Shape := ⟨2, ![256, 100]⟩
abbrev S256x300 : Shape := ⟨2, ![256, 300]⟩
abbrev S256x1 : Shape := ⟨2, ![256, 1]⟩
abbrev S8x100 : Shape := ⟨2, ![8, 100]⟩
abbrev S8x100x640 : Shape := ⟨3, ![8, 100, 640]⟩
abbrev S8x300 : Shape := ⟨2, ![8, 300]⟩
abbrev S8x300x640 : Shape := ⟨3, ![8, 300, 640]⟩
abbrev S8x1 : Shape := ⟨2, ![8, 1]⟩
abbrev S1x100 : Shape := ⟨2, ![1, 100]⟩
abbrev S100 : Shape := ⟨1, ![100]⟩
abbrev S1x100x640 : Shape := ⟨3, ![1, 100, 640]⟩
abbrev S100x640 : Shape := ⟨2, ![100, 640]⟩
abbrev S100x20 : Shape := ⟨2, ![100, 20]⟩
abbrev S100x1 : Shape := ⟨2, ![100, 1]⟩
abbrev S20 : Shape := ⟨1, ![20]⟩
abbrev S20x640 : Shape := ⟨2, ![20, 640]⟩
abbrev S20x1 : Shape := ⟨2, ![20, 1]⟩
abbrev S1x300x640 : Shape := ⟨3, ![1, 300, 640]⟩
abbrev S300x640 : Shape := ⟨2, ![300, 640]⟩
abbrev S300x20 : Shape := ⟨2, ![300, 20]⟩
abbrev S1x20 : Shape := ⟨2, ![1, 20]⟩
abbrev S300 : Shape := ⟨1, ![300]⟩
abbrev S300x1 : Shape := ⟨2, ![300, 1]⟩
abbrev S1x300 : Shape := ⟨2, ![1, 300]⟩
abbrev S1 : Shape := ⟨1, ![1]⟩
abbrev S1x1 : Shape := ⟨2, ![1, 1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S256x100x640, .f32⟩
  | .hbm, ⟨1, _⟩ => ⟨S256x300x640, .f32⟩
  | .hbm, ⟨2, _⟩ => ⟨S256x100, .i32⟩
  | .hbm, ⟨3, _⟩ => ⟨S256x300, .i32⟩
  | .hbm, ⟨4, _⟩ => ⟨S256x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x100, .i32⟩
  | .local _ .vmem, ⟨1, _⟩ => ⟨S8x100, .i32⟩
  | .local _ .vmem, ⟨2, _⟩ => ⟨S8x100x640, .f32⟩
  | .local _ .vmem, ⟨3, _⟩ => ⟨S8x100x640, .f32⟩
  | .local _ .vmem, ⟨4, _⟩ => ⟨S8x300, .i32⟩
  | .local _ .vmem, ⟨5, _⟩ => ⟨S8x300, .i32⟩
  | .local _ .vmem, ⟨6, _⟩ => ⟨S8x300x640, .f32⟩
  | .local _ .vmem, ⟨7, _⟩ => ⟨S8x300x640, .f32⟩
  | .local _ .vmem, ⟨8, _⟩ => ⟨S8x1, .f32⟩
  | .local _ .vmem, ⟨9, _⟩ => ⟨S8x1, .f32⟩
  | _, _ => ⟨S256x100x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1 : Index := Scalar.indexCast arg6
  let c0 : Index := 0#32
  ![v1.toNat, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v4 : Index := Scalar.indexCast arg6
  let c0_1 : Index := 0#32
  let c0_2 : Index := 0#32
  ![v4.toNat, 0, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let v25 : Index := Scalar.indexCast arg6
  let c0_6 : Index := 0#32
  let c0_7 : Index := 0#32
  ![v25.toNat, 0, 0]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let v47 : Index := Scalar.indexCast arg6
  let c0_13 : Index := 0#32
  ![v47.toNat, 0]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let v67 : Index := Scalar.indexCast arg6
  let c0_18 : Index := 0#32
  ![v67.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x300 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x300x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S1x100 : 0 < S1x100.numel
  shapeCasts_S1x100_S100 : S1x100.ShapeCasts S100
  h_S1x100x640 : 0 < S1x100x640.numel
  shapeCasts_S1x100x640_S100x640 : S1x100x640.ShapeCasts S100x640
  iota_S100x20_d1_w32 : S100x20.Iotas .tc 32 [1]
  shapeCasts_S100_S100x1 : S100.ShapeCasts S100x1
  broadcasts_S100x1_S100x20 : S100x1.Broadcasts S100x20
  natLt_1_32 : 1 < 32
  reduces_S100x20_S20 : S100x20.Reduces [0] S20
  bitsLt_bf16_f32 : FTy.bits .bf16 < FTy.bits .f32
  shapeCasts_S20_S20x1 : S20.ShapeCasts S20x1
  broadcasts_S20x1_S20x640 : S20x1.Broadcasts S20x640
  reduces_S20x640_S20 : S20x640.Reduces [1] S20
  h_S1x300x640 : 0 < S1x300x640.numel
  shapeCasts_S1x300x640_S300x640 : S1x300x640.ShapeCasts S300x640
  shapeCasts_S20_S1x20 : S20.ShapeCasts S1x20
  broadcasts_S1x20_S300x20 : S1x20.Broadcasts S300x20
  reduces_S300x20_S300 : S300x20.Reduces [1] S300
  shapeCasts_S300_S300x1 : S300.ShapeCasts S300x1
  broadcasts_S300x1_S300x20 : S300x1.Broadcasts S300x20
  h_S1x300 : 0 < S1x300.numel
  shapeCasts_S1x300_S300 : S1x300.ShapeCasts S300
  iota_S300x20_d1_w32 : S300x20.Iotas .tc 32 [1]
  shapeCasts_S300_S1x300 : S300.ShapeCasts S1x300
  reduces_S1x300_S1 : S1x300.Reduces [1] S1
  shapeCasts_S1_S1x1 : S1.ShapeCasts S1x1
  inpos_S1x1_p0_0 : ∀ a, (![0, 0] : Fin 2 → Nat) a < S1x1.size a
  h_S1x1 : 0 < S1x1.numel
  shapeCasts_S1x1_S1 : S1x1.ShapeCasts S1
  reducesTo_S256x1_S_d0_1 : S256x1.ReducesTo [0, 1] S_
  h_S_ : 0 < S_.numel
  dot_S100x20_S100x640_S20x640_0_0_1_1_n_n_wf : DotDims.WF S100x20 S100x640 S20x640 [0] [0] [1] [1] [] []
  dot_S300x640_S20x640_S300x20_1_1_0_0_n_n_wf : DotDims.WF S300x640 S20x640 S300x20 [1] [1] [0] [0] [] []
  hrank0 : 0 < grid0.rank
  k0_t1_ok : k0_t1_loop.OK
  k0_off1_inb : ∀ k0_t1 : Fin k0_t1_loop.trips, ∀ a, (k0_off1 k0_t1) a + S1x100.size a ≤ S8x100.size a
  k0_off2_inb : ∀ k0_t1 : Fin k0_t1_loop.trips, ∀ a, (k0_off2 k0_t1) a + S1x100x640.size a ≤ S8x100x640.size a
  k0_off3_inb : ∀ k0_t1 : Fin k0_t1_loop.trips, ∀ a, (k0_off3 k0_t1) a + S1x300x640.size a ≤ S8x300x640.size a
  k0_off4_inb : ∀ k0_t1 : Fin k0_t1_loop.trips, ∀ a, (k0_off4 k0_t1) a + S1x300.size a ≤ S8x300.size a
  k0_off5_inb : ∀ k0_t1 : Fin k0_t1_loop.trips, ∀ a, (k0_off5 k0_t1) a + S1x1.size a ≤ S8x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100.size a ≤ S256x100.size a
  hwx0_0 : ∀ i : grid0.Coords, EltTy.bits .i32 = 32 ∨ (Rect.block (s := S256x100) S8x100.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100x640.size a ≤ S256x100x640.size a
  hwx0_1 : ∀ i : grid0.Coords, EltTy.bits .f32 = 32 ∨ (Rect.block (s := S256x100x640) S8x100x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x300.size a ≤ S256x300.size a
  hwx0_2 : ∀ i : grid0.Coords, EltTy.bits .i32 = 32 ∨ (Rect.block (s := S256x300) S8x300.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x300x640.size a ≤ S256x300x640.size a
  hwx0_3 : ∀ i : grid0.Coords, EltTy.bits .f32 = 32 ∨ (Rect.block (s := S256x300x640) S8x300x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S256x1.size a
  hwx0_4 : ∀ i : grid0.Coords, EltTy.bits .f32 = 32 ∨ (Rect.block (s := S256x1) S8x1.size (cc0_transform_4 i) (hinb0_4 i)).WholeWords (EltTy.packing .f32)

variable [Facts₀]

def dot_S100x20_S100x640_S20x640_0_0_1_1_n_n : DotDims S100x20 S100x640 S20x640 where
  lhsContracting := [0]
  rhsContracting := [0]
  lhsNonContracting := [1]
  rhsNonContracting := [1]
  lhsBatch := []
  rhsBatch := []
  wf := dot_S100x20_S100x640_S20x640_0_0_1_1_n_n_wf
def dot_S300x640_S20x640_S300x20_1_1_0_0_n_n : DotDims S300x640 S20x640 S300x20 where
  lhsContracting := [1]
  rhsContracting := [1]
  lhsNonContracting := [0]
  rhsNonContracting := [0]
  lhsBatch := []
  rhsBatch := []
  wf := dot_S300x640_S20x640_S300x20_1_1_0_0_n_n_wf

abbrev win0_0 : Pipeline.Window sig grid0 :=
  Pipeline.Window.ofSpec (Memref.whole main_arg2) S8x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x100x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x300x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x100x640 : Shape := ⟨3, ![256, 100, 640]⟩
abbrev S256x300x640 : Shape := ⟨3, ![256, 300, 640]⟩
abbrev S256x100 : Shape := ⟨2, ![256, 100]⟩
abbrev S256x300 : Shape := ⟨2, ![256, 300]⟩
abbrev S256x100x1 : Shape := ⟨3, ![256, 100, 1]⟩
abbrev S1x1x20 : Shape := ⟨3, ![1, 1, 20]⟩
abbrev S256x100x20 : Shape := ⟨3, ![256, 100, 20]⟩
abbrev S_ : Shape := ⟨0, ![]⟩
abbrev S256x20 : Shape := ⟨2, ![256, 20]⟩
abbrev S256x20x640 : Shape := ⟨3, ![256, 20, 640]⟩
abbrev S256x20x1 : Shape := ⟨3, ![256, 20, 1]⟩
abbrev S256x300x20 : Shape := ⟨3, ![256, 300, 20]⟩
abbrev S256x300x1 : Shape := ⟨3, ![256, 300, 1]⟩
abbrev S256x1x20 : Shape := ⟨3, ![256, 1, 20]⟩
abbrev S256x300x1x1 : Shape := ⟨4, ![256, 300, 1, 1]⟩
abbrev S1 : Shape := ⟨1, ![1]⟩
abbrev S1x1x1x1 : Shape := ⟨4, ![1, 1, 1, 1]⟩
abbrev S256 : Shape := ⟨1, ![256]⟩

abbrev nBuf : Space → Nat
  | .hbm => 82
  | .vmem => 0
  | .smem => 0
  | _ => 0

abbrev bufTy : (tb : Table) → Fin (tcTables nBuf tb) → BufTy
  | .hbm, ⟨0, _⟩ => ⟨S256x100x640, .f32⟩
  | .hbm, ⟨1, _⟩ => ⟨S256x300x640, .f32⟩
  | .hbm, ⟨2, _⟩ => ⟨S256x100, .i32⟩
  | .hbm, ⟨3, _⟩ => ⟨S256x300, .i32⟩
  | .hbm, ⟨4, _⟩ => ⟨S256x100x1, .i32⟩
  | .hbm, ⟨5, _⟩ => ⟨S1x1x20, .i32⟩
  | .hbm, ⟨6, _⟩ => ⟨S256x100x20, .i32⟩
  | .hbm, ⟨7, _⟩ => ⟨S256x100x20, .i32⟩
  | .hbm, ⟨8, _⟩ => ⟨S256x100x20, .i1⟩
  | .hbm, ⟨9, _⟩ => ⟨S256x100x20, .f32⟩
  | .hbm, ⟨10, _⟩ => ⟨S_, .f32⟩
  | .hbm, ⟨11, _⟩ => ⟨S256x20, .f32⟩
  | .hbm, ⟨12, _⟩ => ⟨S256x20x640, .f32⟩
  | .hbm, ⟨13, _⟩ => ⟨S256x20x1, .f32⟩
  | .hbm, ⟨14, _⟩ => ⟨S256x20x640, .f32⟩
  | .hbm, ⟨15, _⟩ => ⟨S256x20x640, .f32⟩
  | .hbm, ⟨16, _⟩ => ⟨S256x300x640, .f32⟩
  | .hbm, ⟨17, _⟩ => ⟨S_, .f32⟩
  | .hbm, ⟨18, _⟩ => ⟨S256x300, .f32⟩
  | .hbm, ⟨19, _⟩ => ⟨S256x20x640, .f32⟩
  | .hbm, ⟨20, _⟩ => ⟨S_, .f32⟩
  | .hbm, ⟨21, _⟩ => ⟨S256x20, .f32⟩
  | .hbm, ⟨22, _⟩ => ⟨S256x300x20, .f32⟩
  | .hbm, ⟨23, _⟩ => ⟨S256x300x1, .f32⟩
  | .hbm, ⟨24, _⟩ => ⟨S256x1x20, .f32⟩
  | .hbm, ⟨25, _⟩ => ⟨S256x300x20, .f32⟩
  | .hbm, ⟨26, _⟩ => ⟨S256x300x20, .f32⟩
  | .hbm, ⟨27, _⟩ => ⟨S256x300x20, .f32⟩
  | .hbm, ⟨28, _⟩ => ⟨S_, .f32⟩
  | .hbm, ⟨29, _⟩ => ⟨S256x300x20, .f32⟩
  | .hbm, ⟨30, _⟩ => ⟨S256x300x20, .f32⟩
  | .hbm, ⟨31, _⟩ => ⟨S256x300x20, .f32⟩
  | .hbm, ⟨32, _⟩ => ⟨S256x300x20, .f32⟩
  | .hbm, ⟨33, _⟩ => ⟨S_, .f32⟩
  | .hbm, ⟨34, _⟩ => ⟨S256x300, .f32⟩
  | .hbm, ⟨35, _⟩ => ⟨S_, .f32⟩
  | .hbm, ⟨36, _⟩ => ⟨S256x300, .f32⟩
  | .hbm, ⟨37, _⟩ => ⟨S256x300, .f32⟩
  | .hbm, ⟨38, _⟩ => ⟨S256x300x1, .f32⟩
  | .hbm, ⟨39, _⟩ => ⟨S256x300x20, .f32⟩
  | .hbm, ⟨40, _⟩ => ⟨S256x300x20, .f32⟩
  | .hbm, ⟨41, _⟩ => ⟨S256x300x20, .f32⟩
  | .hbm, ⟨42, _⟩ => ⟨S_, .f32⟩
  | .hbm, ⟨43, _⟩ => ⟨S256x300, .f32⟩
  | .hbm, ⟨44, _⟩ => ⟨S256x300x1, .f32⟩
  | .hbm, ⟨45, _⟩ => ⟨S256x300x1, .f32⟩
  | .hbm, ⟨46, _⟩ => ⟨S256x300x20, .f32⟩
  | .hbm, ⟨47, _⟩ => ⟨S256x300x20, .f32⟩
  | .hbm, ⟨48, _⟩ => ⟨S256x300x1, .i32⟩
  | .hbm, ⟨49, _⟩ => ⟨S_, .i32⟩
  | .hbm, ⟨50, _⟩ => ⟨S256x300x1, .i32⟩
  | .hbm, ⟨51, _⟩ => ⟨S256x300x1, .i1⟩
  | .hbm, ⟨52, _⟩ => ⟨S_, .i32⟩
  | .hbm, ⟨53, _⟩ => ⟨S256x300x1, .i32⟩
  | .hbm, ⟨54, _⟩ => ⟨S256x300x1, .i32⟩
  | .hbm, ⟨55, _⟩ => ⟨S256x300x1, .i32⟩
  | .hbm, ⟨56, _⟩ => ⟨S256x300x1x1, .i32⟩
  | .hbm, ⟨57, _⟩ => ⟨S1, .i32⟩
  | .hbm, ⟨58, _⟩ => ⟨S_, .i32⟩
  | .hbm, ⟨59, _⟩ => ⟨S256x300x1x1, .i32⟩
  | .hbm, ⟨60, _⟩ => ⟨S256x300x1x1, .i1⟩
  | .hbm, ⟨61, _⟩ => ⟨S1x1x1x1, .i32⟩
  | .hbm, ⟨62, _⟩ => ⟨S256x300x1x1, .i32⟩
  | .hbm, ⟨63, _⟩ => ⟨S256x300x1x1, .i1⟩
  | .hbm, ⟨64, _⟩ => ⟨S256x300x1x1, .i1⟩
  | .hbm, ⟨65, _⟩ => ⟨S_, .i1⟩
  | .hbm, ⟨66, _⟩ => ⟨S256x300x1, .i1⟩
  | .hbm, ⟨67, _⟩ => ⟨S256x300x1, .f32⟩
  | .hbm, ⟨68, _⟩ => ⟨S_, .f32⟩
  | .hbm, ⟨69, _⟩ => ⟨S256x300x1, .f32⟩
  | .hbm, ⟨70, _⟩ => ⟨S256x300x1, .f32⟩
  | .hbm, ⟨71, _⟩ => ⟨S256x300, .f32⟩
  | .hbm, ⟨72, _⟩ => ⟨S256x300, .f32⟩
  | .hbm, ⟨73, _⟩ => ⟨S_, .f32⟩
  | .hbm, ⟨74, _⟩ => ⟨S256, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S256x100x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_call1_cst_0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_cst_1 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_v20 : Ref sig .tc := ⟨.hbm, 47, rfl⟩
abbrev main_v21 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_cst : Ref sig .tc := ⟨.hbm, 68, rfl⟩
abbrev main_call2_v14 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_3 : Ref sig .tc := ⟨.hbm, 73, rfl⟩
abbrev main_v25 : Ref sig .tc := ⟨.hbm, 74, rfl⟩
abbrev main_cst_4 : Ref sig .tc := ⟨.hbm, 75, rfl⟩
abbrev main_v26 : Ref sig .tc := ⟨.hbm, 76, rfl⟩
abbrev main_v27 : Ref sig .tc := ⟨.hbm, 77, rfl⟩
abbrev main_cst_5 : Ref sig .tc := ⟨.hbm, 78, rfl⟩
abbrev main_v28 : Ref sig .tc := ⟨.hbm, 79, rfl⟩
abbrev main_cst_6 : Ref sig .tc := ⟨.hbm, 80, rfl⟩
abbrev main_v29 : Ref sig .tc := ⟨.hbm, 81, rfl⟩

abbrev nD : Nat := 1
abbrev τ : Topo := Topo.v7x

variable {F : FTy → Type} [FloatOps F]

class Facts₀ : Prop where
  bcast_S256x100_S256x100x1_0_1 : S256x100.BroadcastsInDim S256x100x1 (![0, 1] : Fin 2 → Fin S256x100x1.rank)
  bcast_S256x100x1_S256x100x20_0_1_2 : S256x100x1.BroadcastsInDim S256x100x20 (![0, 1, 2] : Fin 3 → Fin S256x100x20.rank)
  bcast_S1x1x20_S256x100x20_0_1_2 : S1x1x20.BroadcastsInDim S256x100x20 (![0, 1, 2] : Fin 3 → Fin S256x100x20.rank)
  reducesTo_S256x100x20_S256x20_d1 : S256x100x20.ReducesTo [1] S256x20
  h_S_ : 0 < S_.numel
  bcast_S256x20_S256x20x1_0_1 : S256x20.BroadcastsInDim S256x20x1 (![0, 1] : Fin 2 → Fin S256x20x1.rank)
  bcast_S256x20x1_S256x20x640_0_1_2 : S256x20x1.BroadcastsInDim S256x20x640 (![0, 1, 2] : Fin 3 → Fin S256x20x640.rank)
  reducesTo_S256x300x640_S256x300_d2 : S256x300x640.ReducesTo [2] S256x300
  reducesTo_S256x20x640_S256x20_d2 : S256x20x640.ReducesTo [2] S256x20
  bcast_S256x300_S256x300x1_0_1 : S256x300.BroadcastsInDim S256x300x1 (![0, 1] : Fin 2 → Fin S256x300x1.rank)
  bcast_S256x20_S256x1x20_0_2 : S256x20.BroadcastsInDim S256x1x20 (![0, 2] : Fin 2 → Fin S256x1x20.rank)
  bcast_S256x300x1_S256x300x20_0_1_2 : S256x300x1.BroadcastsInDim S256x300x20 (![0, 1, 2] : Fin 3 → Fin S256x300x20.rank)
  bcast_S256x1x20_S256x300x20_0_1_2 : S256x1x20.BroadcastsInDim S256x300x20 (![0, 1, 2] : Fin 3 → Fin S256x300x20.rank)
  bcast_S_S256x300x20 : S_.BroadcastsInDim S256x300x20 (![] : Fin 0 → Fin S256x300x20.rank)
  reducesTo_S256x300x20_S256x300_d2 : S256x300x20.ReducesTo [2] S256x300
  bcast_S_S256x300 : S_.BroadcastsInDim S256x300 (![] : Fin 0 → Fin S256x300.rank)
  bcast_S_S256x300x1 : S_.BroadcastsInDim S256x300x1 (![] : Fin 0 → Fin S256x300x1.rank)
  shapeCasts_S256x300x1_S256x300x1x1 : S256x300x1.ShapeCasts S256x300x1x1
  bcast_S_S256x300x1x1 : S_.BroadcastsInDim S256x300x1x1 (![] : Fin 0 → Fin S256x300x1x1.rank)
  bcast_S1_S1x1x1x1_3 : S1.BroadcastsInDim S1x1x1x1 (![3] : Fin 1 → Fin S1x1x1x1.rank)
  bcast_S1x1x1x1_S256x300x1x1_0_1_2_3 : S1x1x1x1.BroadcastsInDim S256x300x1x1 (![0, 1, 2, 3] : Fin 4 → Fin S256x300x1x1.rank)
  reducesTo_S256x300x1x1_S256x300x1_d3 : S256x300x1x1.ReducesTo [3] S256x300x1
  shapeCasts_S256x300x1_S256x300 : S256x300x1.ShapeCasts S256x300
  reducesTo_S256x300_S256_d1 : S256x300.ReducesTo [1] S256
  bcast_S_S256 : S_.BroadcastsInDim S256 (![] : Fin 0 → Fin S256.rank)
  reducesTo_S256_S_d0 : S256.ReducesTo [0] S_
  dot_S256x100x20_S256x100x640_S256x20x640_1_1_2_2_0_0_wf : DotDims.WF S256x100x20 S256x100x640 S256x20x640 [1] [1] [2] [2] [0] [0]
  dot_S256x300x640_S256x20x640_S256x300x20_2_2_1_1_0_0_wf : DotDims.WF S256x300x640 S256x20x640 S256x300x20 [2] [2] [1] [1] [0] [0]
  gather_S256x300x20_S256x300x1x1_S256x300x1_n_2_01_01_2_3_111_wf : GatherDims.WF S256x300x20 S256x300x1x1 S256x300x1 [] [2] [0, 1] [2] [0, 1] 3 ![1, 1, 1]

variable [Facts₀]

def dot_S256x100x20_S256x100x640_S256x20x640_1_1_2_2_0_0 : DotDims S256x100x20 S256x100x640 S256x20x640 where
  lhsContracting := [1]
  rhsContracting := [1]
  lhsNonContracting := [2]
  rhsNonContracting := [2]
  lhsBatch := [0]
  rhsBatch := [0]
  wf := dot_S256x100x20_S256x100x640_S256x20x640_1_1_2_2_0_0_wf
def dot_S256x300x640_S256x20x640_S256x300x20_2_2_1_1_0_0 : DotDims S256x300x640 S256x20x640 S256x300x20 where
  lhsContracting := [2]
  rhsContracting := [2]
  lhsNonContracting := [1]
  rhsNonContracting := [1]
  lhsBatch := [0]
  rhsBatch := [0]
  wf := dot_S256x300x640_S256x20x640_S256x300x20_2_2_1_1_0_0_wf
def gather_S256x300x20_S256x300x1x1_S256x300x1_n_2_01_01_2_3_111 : GatherDims S256x300x20 S256x300x1x1 S256x300x1 where
  offsetDims := []
  collapsedSliceDims := [2]
  operandBatchingDims := [0, 1]
  startIndicesBatchingDims := [0, 1]
  startIndexMap := [2]
  indexVectorDim := 3
  sliceSizes := ![1, 1, 1]
  wf := gather_S256x300x20_S256x300x1x1_S256x300x1_n_2_01_01_2_3_111_wf

class Facts : Prop extends Facts₀ where

variable [Facts]
-- ==== Proof.KDefs.lean ====
/-
  The kernel's value at one episode, named: one trip of the body's loop loads row `k` of each of the four input blocks (the
  support labels, the support vectors, the query labels, the query vectors of episode `k` of the block) and stores, at row
  `k` of the output block, one number computed from those four rows. `payAt` is that number as a function of the four rows;
  `brow…` cut row `k` out of a block of 8 episodes and `arow…` episode `b` out of a whole argument array.
-/
import proofs.«427852_j59596966199581_3_alg».proof.Proof.Gen.KernelIdeal.Skeleton
import Idealize.ShloMosaic.Lib.ValueIdx

noncomputable section

namespace Cert.KernelIdeal.KV

open Cert.KernelIdeal Cert.KernelIdeal.Gen Idealize.ShloMosaic Idealize.ShloMosaic.ValueIdx

variable {F : FTy → Type} [FloatOps F]

/-- What one trip stores, from the four rows it loads: the support labels `v2`, the support vectors `v5`, the query
    labels `v48`, the query vectors `v26`. -/
def payAt (v2 : Vec F S1x100 .i32) (v5 : Vec F S1x100x640 .f32) (v48 : Vec F S1x300 .i32) (v26 : Vec F S1x300x640 .f32) : F .f32 :=
  k0_pay1 (k0_pay2 v2 v5 v26) (k0_pay3 v2 v5 v26) v48 (ix2 0 0)

/-- Row `k` of a block of support labels. -/
def brow0 (x : Vec F S8x100 .i32) (k : Fin 8) : Vec F S1x100 .i32 := fun j => x (ix2 k ⟨(j 1).val, (j 1).isLt⟩)
/-- Row `k` of a block of support vectors. -/
def brow1 (x : Vec F S8x100x640 .f32) (k : Fin 8) : Vec F S1x100x640 .f32 :=
  fun j => x (ix3 k ⟨(j 1).val, (j 1).isLt⟩ ⟨(j 2).val, (j 2).isLt⟩)
/-- Row `k` of a block of query labels. -/
def brow2 (x : Vec F S8x300 .i32) (k : Fin 8) : Vec F S1x300 .i32 := fun j => x (ix2 k ⟨(j 1).val, (j 1).isLt⟩)
/-- Row `k` of a block of query vectors. -/
def brow3 (x : Vec F S8x300x640 .f32) (k : Fin 8) : Vec F S1x300x640 .f32 :=
  fun j => x (ix3 k ⟨(j 1).val, (j 1).isLt⟩ ⟨(j 2).val, (j 2).isLt⟩)

/-- Episode `b` of the support labels. -/
def arow0 (x : Vec F S256x100 .i32) (b : Fin 256) : Vec F S1x100 .i32 := fun j => x (ix2 b ⟨(j 1).val, (j 1).isLt⟩)
/-- Episode `b` of the support vectors. -/
def arow1 (x : Vec F S256x100x640 .f32) (b : Fin 256) : Vec F S1x100x640 .f32 :=
  fun j => x (ix3 b ⟨(j 1).val, (j 1).isLt⟩ ⟨(j 2).val, (j 2).isLt⟩)
/-- Episode `b` of the query labels. -/
def arow2 (x : Vec F S256x300 .i32) (b : Fin 256) : Vec F S1x300 .i32 := fun j => x (ix2 b ⟨(j 1).val, (j 1).isLt⟩)
/-- Episode `b` of the query vectors. -/
def arow3 (x : Vec F S256x300x640 .f32) (b : Fin 256) : Vec F S1x300x640 .f32 :=
  fun j => x (ix3 b ⟨(j 1).val, (j 1).isLt⟩ ⟨(j 2).val, (j 2).isLt⟩)

end Cert.KernelIdeal.KV

end
-- ==== Proof.KTrip.lean ====
/-
  What the kernel's body leaves in its output block: the body is a loop of 8 trips, trip `k` storing at row `k` the number
  `payAt` of row `k` of the four input blocks; so the block the run leaves, read at row `k`, is that number.

  The run's pieces are the trips' pieces, one per trip; trip `k`'s piece sits at row `k` and its payload is computed from
  the four rows loaded at row `k`; a load through the unit rectangle at row `k` reads row `k` of the block. So every piece
  is one function of the block's index (`blockVal`) on its rectangle, and the pieces, which cover the block, read back as
  that function.
-/
import proofs.«427852_j59596966199581_3_alg».proof.Proof.Gen.KernelIdeal.Frame
import proofs.«427852_j59596966199581_3_alg».proof.Proof.KDefs
import Idealize.ShloMosaic.Lib.Pipeline.Value

noncomputable section

namespace Cert.KernelIdeal.KV

open Cert.KernelIdeal Cert.KernelIdeal.Gen Idealize.ShloMosaic Idealize.ShloMosaic.ValueIdx

variable {F : FTy → Type} [FloatOps F]

namespace KTrip

/-- The body's loop has 8 trips. -/
theorem trips_eq : k0_t1_loop.trips = 8 := by decide

/-- A load through the unit rectangle of sizes `[1, m]` at row `r` of a block of `n` rows reads row `r`. -/
theorem ld_row2 {Val : EltTy → Type} {e : EltTy} {n m : Nat} (X : (⟨2, ![n, m]⟩ : Shape).Idx → Val e) (off : Fin 2 → Nat) (r : Fin n)
    (hoff : off = ![r.val, 0]) (inb : ∀ a, off a + (![1, m] : Fin 2 → Nat) a ≤ (⟨2, ![n, m]⟩ : Shape).size a) :
    View.ld X (Rect.unit off ![1, m] inb) = fun j => X (ix2 r ⟨(j 1).val, (j 1).isLt⟩) := by
  subst hoff
  funext j
  refine congrArg X (funext fun a => Fin.ext ?_)
  match a with
  | ⟨0, _⟩ =>
    have h : (j 0).val < 1 := (j 0).isLt
    show r.val + 1 * (j 0).val = r.val
    omega
  | ⟨1, _⟩ =>
    show 0 + 1 * (j 1).val = (j 1).val
    omega

/-- The same at rank 3: sizes `[1, m, l]` at row `r`. -/
theorem ld_row3 {Val : EltTy → Type} {e : EltTy} {n m l : Nat} (X : (⟨3, ![n, m, l]⟩ : Shape).Idx → Val e) (off : Fin 3 → Nat) (r : Fin n)
    (hoff : off = ![r.val, 0, 0]) (inb : ∀ a, off a + (![1, m, l] : Fin 3 → Nat) a ≤ (⟨3, ![n, m, l]⟩ : Shape).size a) :
    View.ld X (Rect.unit off ![1, m, l] inb) = fun j => X (ix3 r ⟨(j 1).val, (j 1).isLt⟩ ⟨(j 2).val, (j 2).isLt⟩) := by
  subst hoff
  funext j
  refine congrArg X (funext fun a => Fin.ext ?_)
  match a with
  | ⟨0, _⟩ =>
    have h : (j 0).val < 1 := (j 0).isLt
    show r.val + 1 * (j 0).val = r.val
    omega
  | ⟨1, _⟩ =>
    show 0 + 1 * (j 1).val = (j 1).val
    omega
  | ⟨2, _⟩ =>
    show 0 + 1 * (j 2).val = (j 2).val
    omega

/-! ## The four rows trip `k` loads -/

/-- Trip `k` as a row of the block. -/
def rowK (k : Fin k0_t1_loop.trips) : Fin 8 := ⟨k.val, lt_of_lt_of_eq k.isLt trips_eq⟩

theorem row0_eq (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) (k : Fin k0_t1_loop.trips) :
    View.readAt (Elt F) arg1.view (Rect.unit (s := S8x100) (k0_off1 k) S1x100.size (k0_off1_inb k)).toLoadRect (harg1.unread x0) = brow0 x0 (rowK k) := by
  rw [View.readAt_eq_ld, harg1.read_unread]
  exact ld_row2 x0 (k0_off1 k) (rowK k) (k0_off1_eq k) (k0_off1_inb k)

theorem row1_eq (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) (k : Fin k0_t1_loop.trips) :
    View.readAt (Elt F) arg2.view (Rect.unit (s := S8x100x640) (k0_off2 k) S1x100x640.size (k0_off2_inb k)).toLoadRect (harg2.unread x1) = brow1 x1 (rowK k) := by
  rw [View.readAt_eq_ld, harg2.read_unread]
  exact ld_row3 x1 (k0_off2 k) (rowK k) (k0_off2_eq k) (k0_off2_inb k)

theorem row2_eq (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) (k : Fin k0_t1_loop.trips) :
    View.readAt (Elt F) arg3.view (Rect.unit (s := S8x300) (k0_off4 k) S1x300.size (k0_off4_inb k)).toLoadRect (harg3.unread x2) = brow2 x2 (rowK k) := by
  rw [View.readAt_eq_ld, harg3.read_unread]
  exact ld_row2 x2 (k0_off4 k) (rowK k) (k0_off4_eq k) (k0_off4_inb k)

theorem row3_eq (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) (k : Fin k0_t1_loop.trips) :
    View.readAt (Elt F) arg4.view (Rect.unit (s := S8x300x640) (k0_off3 k) S1x300x640.size (k0_off3_inb k)).toLoadRect (harg4.unread x3) = brow3 x3 (rowK k) := by
  rw [View.readAt_eq_ld, harg4.read_unread]
  exact ld_row3 x3 (k0_off3 k) (rowK k) (k0_off3_eq k) (k0_off3_inb k)

/-! ## The run's pieces -/

/-- What the whole body leaves in the output block: the pieces of all the trips. -/
theorem run_eq (c : Dev nD) (i : grid0.Coords) (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) :
    (kernelRun0_A (F := F) c i arg1 harg1 arg2 harg2 arg3 harg3 arg4 harg4 arg5 harg5 x0 x1 x2 x3).1
      = pb_k0_t1 (F := F) Variants.none c none i arg1 harg1 arg2 harg2 arg3 harg3 arg4 harg4 arg5 harg5 (harg1.unread x0) (harg2.unread x1) (harg3.unread x2) (harg4.unread x3) k0_t1_loop.trips := by
  unfold kernelRun0_A
  rfl

open Idealize.ShloMosaic.Tactic in
/-- Trip `k` writes one piece: at row `k` of the output block, the payload of the four rows it loads. -/
theorem tripL_eq (𝒱 : Variants) (c : Dev nD) (bd : Option 𝒱.V) (i : grid0.Coords) (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 X_arg1 X_arg2 X_arg3 X_arg4 k
      = [⟨Rect.unit (s := S8x1) (k0_off5 k) S1x1.size (k0_off5_inb k),
          k0_pay1
            (k0_pay2 (View.readAt (Elt F) arg1.view (Rect.unit (s := S8x100) (k0_off1 k) S1x100.size (k0_off1_inb k)).toLoadRect X_arg1)
              (View.readAt (Elt F) arg2.view (Rect.unit (s := S8x100x640) (k0_off2 k) S1x100x640.size (k0_off2_inb k)).toLoadRect X_arg2)
              (View.readAt (Elt F) arg4.view (Rect.unit (s := S8x300x640) (k0_off3 k) S1x300x640.size (k0_off3_inb k)).toLoadRect X_arg4))
            (k0_pay3 (View.readAt (Elt F) arg1.view (Rect.unit (s := S8x100) (k0_off1 k) S1x100.size (k0_off1_inb k)).toLoadRect X_arg1)
              (View.readAt (Elt F) arg2.view (Rect.unit (s := S8x100x640) (k0_off2 k) S1x100x640.size (k0_off2_inb k)).toLoadRect X_arg2)
              (View.readAt (Elt F) arg4.view (Rect.unit (s := S8x300x640) (k0_off3 k) S1x300x640.size (k0_off3_inb k)).toLoadRect X_arg4))
            (View.readAt (Elt F) arg3.view (Rect.unit (s := S8x300) (k0_off4 k) S1x300.size (k0_off4_inb k)).toLoadRect X_arg3)⟩] := by
  unfold tripL_k0_t1 trip_k0_t1
  dsimp only
  sl_unfold_run_names
  rfl

/-! ## The output block as one function of its row -/

/-- The number stored at row `r`. -/
def rowVal (x0 : Vec F S8x100 .i32) (x1 : Vec F S8x100x640 .f32) (x2 : Vec F S8x300 .i32) (x3 : Vec F S8x300x640 .f32) (r : Fin 8) : F .f32 :=
  payAt (brow0 x0 r) (brow1 x1 r) (brow2 x2 r) (brow3 x3 r)

/-- The output block the trips fill, as a function of its index: at row `y 0`, that row's number. -/
def blockVal (x0 : Vec F S8x100 .i32) (x1 : Vec F S8x100x640 .f32) (x2 : Vec F S8x300 .i32) (x3 : Vec F S8x300x640 .f32) : S8x1.Idx → Elt F .f32 :=
  fun y => rowVal x0 x1 x2 x3 ⟨(y 0).val, (y 0).isLt⟩

/-- Trip `k`'s piece is the block's function on its rectangle. -/
theorem piece_eq (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) (k : Fin k0_t1_loop.trips)
    (x : (Rect.unit (s := S8x1) (k0_off5 k) S1x1.size (k0_off5_inb k)).shape.Idx) :
    k0_pay1
        (k0_pay2 (View.readAt (Elt F) arg1.view (Rect.unit (s := S8x100) (k0_off1 k) S1x100.size (k0_off1_inb k)).toLoadRect (harg1.unread x0))
          (View.readAt (Elt F) arg2.view (Rect.unit (s := S8x100x640) (k0_off2 k) S1x100x640.size (k0_off2_inb k)).toLoadRect (harg2.unread x1))
          (View.readAt (Elt F) arg4.view (Rect.unit (s := S8x300x640) (k0_off3 k) S1x300x640.size (k0_off3_inb k)).toLoadRect (harg4.unread x3)))
        (k0_pay3 (View.readAt (Elt F) arg1.view (Rect.unit (s := S8x100) (k0_off1 k) S1x100.size (k0_off1_inb k)).toLoadRect (harg1.unread x0))
          (View.readAt (Elt F) arg2.view (Rect.unit (s := S8x100x640) (k0_off2 k) S1x100x640.size (k0_off2_inb k)).toLoadRect (harg2.unread x1))
          (View.readAt (Elt F) arg4.view (Rect.unit (s := S8x300x640) (k0_off3 k) S1x300x640.size (k0_off3_inb k)).toLoadRect (harg4.unread x3)))
        (View.readAt (Elt F) arg3.view (Rect.unit (s := S8x300) (k0_off4 k) S1x300.size (k0_off4_inb k)).toLoadRect (harg3.unread x2)) x
      = blockVal x0 x1 x2 x3 ((Rect.unit (s := S8x1) (k0_off5 k) S1x1.size (k0_off5_inb k)).emb x) := by
  rw [row0_eq arg1 harg1 arg2 harg2 arg3 harg3 arg4 harg4 arg5 harg5 x0 x1 x2 x3 k, row1_eq arg1 harg1 arg2 harg2 arg3 harg3 arg4 harg4 arg5 harg5 x0 x1 x2 x3 k, row2_eq arg1 harg1 arg2 harg2 arg3 harg3 arg4 harg4 arg5 harg5 x0 x1 x2 x3 k, row3_eq arg1 harg1 arg2 harg2 arg3 harg3 arg4 harg4 arg5 harg5 x0 x1 x2 x3 k]
  have hx : x = ix2 0 0 := by
    funext a
    match a with
    | ⟨0, _⟩ => exact Fin.ext (by have h : (x 0).val < 1 := (x 0).isLt; show (x 0).val = 0; omega)
    | ⟨1, _⟩ => exact Fin.ext (by have h : (x 1).val < 1 := (x 1).isLt; show (x 1).val = 0; omega)
  have hr : (⟨(((Rect.unit (s := S8x1) (k0_off5 k) S1x1.size (k0_off5_inb k)).emb x) 0).val,
      (((Rect.unit (s := S8x1) (k0_off5 k) S1x1.size (k0_off5_inb k)).emb x) 0).isLt⟩ : Fin 8) = rowK k := by
    refine Fin.ext ?_
    have h : (x 0).val < 1 := (x 0).isLt
    have ho : k0_off5 k 0 = k.val := by rw [k0_off5_eq k]; rfl
    show k0_off5 k 0 + 1 * (x 0).val = k.val
    omega
  unfold blockVal rowVal payAt
  rw [hr, hx]

/-- Every piece the trips before `n` wrote is the block's function on its rectangle. -/
theorem pb_pieces (c : Dev nD) (i : grid0.Coords) (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole) (x0 : Vec F S8x100 .i32) (x1 : Vec F S8x100x640 .f32) (x2 : Vec F S8x300 .i32) (x3 : Vec F S8x300x640 .f32) :
    ∀ (n : ℕ) (_ : n ≤ k0_t1_loop.trips),
      ∀ p ∈ pb_k0_t1 (F := F) Variants.none c none i arg1 harg1 arg2 harg2 arg3 harg3 arg4 harg4 arg5 harg5 (harg1.unread x0) (harg2.unread x1) (harg3.unread x2) (harg4.unread x3) n,
        ∀ x : p.1.shape.Idx, p.2 x = blockVal x0 x1 x2 x3 (p.1.emb x)
  | 0, _ => fun p hp => absurd hp List.not_mem_nil
  | n + 1, hn => by
    intro p hp x
    have hs := pb_k0_t1_succ (F := F) Variants.none c none i arg1 harg1 arg2 harg2 arg3 harg3 arg4 harg4 arg5 harg5 (harg1.unread x0) (harg2.unread x1) (harg3.unread x2) (harg4.unread x3) ⟨n, hn⟩
    rw [hs, tripL_eq, List.mem_append, List.mem_singleton] at hp
    rcases hp with rfl | hp
    · exact piece_eq arg1 harg1 arg2 harg2 arg3 harg3 arg4 harg4 arg5 harg5 x0 x1 x2 x3 ⟨n, hn⟩ x
    · exact pb_pieces c i arg1 harg1 arg2 harg2 arg3 harg3 arg4 harg4 arg5 harg5 x0 x1 x2 x3 n (Nat.le_of_succ_le hn) p hp x

end KTrip

open KTrip in
/-- The output block after the body, at row `k`: trip `k`'s number. -/
theorem out0_A_4_apply (c : Dev nD) (i : grid0.Coords) (arg1 : Memref sig .tc .vmem S8x100 .i32) (harg1 : arg1.IsWhole)
    (arg2 : Memref sig .tc .vmem S8x100x640 .f32) (harg2 : arg2.IsWhole) (arg3 : Memref sig .tc .vmem S8x300 .i32) (harg3 : arg3.IsWhole)
    (arg4 : Memref sig .tc .vmem S8x300x640 .f32) (harg4 : arg4.IsWhole) (arg5 : Memref sig .tc .vmem S8x1 .f32) (harg5 : arg5.IsWhole)
    (x0 : Vec F S8x100 .i32) (x1 : Vec F S8x100x640 .f32) (x2 : Vec F S8x300 .i32) (x3 : Vec F S8x300x640 .f32) (k : Fin 8) :
    out0_A_4 (F := F) c i arg1 harg1 arg2 harg2 arg3 harg3 arg4 harg4 arg5 harg5 x0 x1 x2 x3 (ix2 k 0)
      = payAt (brow0 x0 k) (brow1 x1 k) (brow2 x2 k) (brow3 x3 k) := by
  have hcov := cover0_A_4 (F := F) c i arg1 harg1 arg2 harg2 arg3 harg3 arg4 harg4 arg5 harg5 x0 x1 x2 x3 (ix2 k 0)
  unfold out0_A_4
  rw [View.read_writes_junk_apply_eq_canon]
  rw [run_eq] at hcov ⊢
  exact View.canon_apply_of_pieces (blockVal x0 x1 x2 x3) _
    (pb_pieces c i arg1 harg1 arg2 harg2 arg3 harg3 arg4 harg4 arg5 harg5 x0 x1 x2 x3 k0_t1_loop.trips (Nat.le_refl _)) (ix2 k 0) hcov

end Cert.KernelIdeal.KV

end
-- ==== Proof.Spec.lean ====
/-
  One episode of the prototypical-network loss over the extended reals, written twice: as the kernel computes it and as
  the reference computes it. An episode has 100 support vectors and 300 query vectors of dimension 640 and 20 classes.

  * the one-hot weight of label `t` at class `c` is `oh t c`;
  * a class's prototype is the one-hot weighted sum of the support vectors divided by the class's count (the kernel divides
    by `max count 1`);
  * the logit of query `q` at class `c` is minus the squared distance ‖q‖² + ‖p_c‖² − 2 q·p_c; the kernel leaves ‖q‖² out;
  * the log-softmax over the classes subtracts the row's maximum first;
  * the loss of a query is minus the log-probability at its label (the kernel takes it as a one-hot weighted sum over the
    classes), the episode's loss is the mean over the 300 queries, and the result the mean over the 256 episodes.
-/
import Idealize.ShloMosaic.PureOps.Ideal

noncomputable section

namespace Cert.Proto

open Idealize.ShloMosaic

/-- The one-hot weight: 1 when the label word is the class's number, else 0. -/
def oh (t : BitVec 32) (c : Fin 20) : EReal := if t = BitVec.ofNat 32 c.val then 1 else 0

/-- How many support labels name class `c`. -/
def cnt (ts : Fin 100 → BitVec 32) (c : Fin 20) : EReal := ∑ s : Fin 100, oh (ts s) c

/-- The sum of the support vectors labelled `c`, coordinate `d`. -/
def psum (ts : Fin 100 → BitVec 32) (sup : Fin 100 → Fin 640 → EReal) (c : Fin 20) (d : Fin 640) : EReal :=
  ∑ s : Fin 100, oh (ts s) c * sup s d

/-- The kernel's prototype: the sum over the count guarded from below by 1. -/
def protoK (ts : Fin 100 → BitVec 32) (sup : Fin 100 → Fin 640 → EReal) (c : Fin 20) (d : Fin 640) : EReal :=
  Ideal.div (psum ts sup c d) (max (cnt ts c) 1)

/-- The reference's prototype: the sum over the count. -/
def protoR (ts : Fin 100 → BitVec 32) (sup : Fin 100 → Fin 640 → EReal) (c : Fin 20) (d : Fin 640) : EReal :=
  Ideal.div (psum ts sup c d) (cnt ts c)

/-- ‖p_c‖². -/
def psq (p : Fin 20 → Fin 640 → EReal) (c : Fin 20) : EReal := ∑ d : Fin 640, p c d * p c d

/-- q·p_c. -/
def cross (qr : Fin 300 → Fin 640 → EReal) (p : Fin 20 → Fin 640 → EReal) (q : Fin 300) (c : Fin 20) : EReal :=
  ∑ d : Fin 640, qr q d * p c d

/-- ‖q‖². -/
def qsq (qr : Fin 300 → Fin 640 → EReal) (q : Fin 300) : EReal := ∑ d : Fin 640, qr q d * qr q d

/-- The kernel's logit: 0 − (‖p_c‖² − 2 q·p_c). -/
def logitK (p : Fin 20 → Fin 640 → EReal) (qr : Fin 300 → Fin 640 → EReal) (q : Fin 300) (c : Fin 20) : EReal :=
  0 - (psq p c - ((2 : ℝ) : EReal) * cross qr p q c)

/-- The reference's logit: −((‖q‖² + ‖p_c‖²) − 2 q·p_c). -/
def logitR (p : Fin 20 → Fin 640 → EReal) (qr : Fin 300 → Fin 640 → EReal) (q : Fin 300) (c : Fin 20) : EReal :=
  -((qsq qr q + psq p c) - ((2 : ℝ) : EReal) * cross qr p q c)

/-- A row's maximum, folded from −∞. -/
def rowMax (a : Fin 20 → EReal) : EReal := (Finset.univ : Finset (Fin 20)).fold max ⊥ a

/-- The log-softmax of a row, shifted by its maximum. -/
def logSoftmax (a : Fin 20 → EReal) (c : Fin 20) : EReal :=
  (a c - rowMax a) - Ideal.log (∑ c' : Fin 20, Ideal.exp (a c' - rowMax a))

/-- The kernel's loss of one query: 0 − the one-hot weighted sum of the log-probabilities. -/
def nllK (lp : Fin 20 → EReal) (t : BitVec 32) : EReal := 0 - ∑ c : Fin 20, lp c * oh t c

/-- The reference's loss of one query: minus the log-probability at the label. -/
def nllR (lp : Fin 20 → EReal) (t : Fin 20) : EReal := -(lp t)

/-- The kernel's loss of an episode. -/
def episodeK (ts : Fin 100 → BitVec 32) (sup : Fin 100 → Fin 640 → EReal) (tq : Fin 300 → BitVec 32)
    (qr : Fin 300 → Fin 640 → EReal) : EReal :=
  Ideal.div (∑ q : Fin 300, nllK (logSoftmax (logitK (protoK ts sup) qr q)) (tq q)) ((300 : ℝ) : EReal)

/-- The reference's loss of an episode, the query labels given as classes. -/
def episodeR (ts : Fin 100 → BitVec 32) (sup : Fin 100 → Fin 640 → EReal) (tq : Fin 300 → Fin 20)
    (qr : Fin 300 → Fin 640 → EReal) : EReal :=
  Ideal.div (∑ q : Fin 300, nllR (logSoftmax (logitR (protoR ts sup) qr q)) (tq q)) ((300 : ℝ) : EReal)

/-- The mean over the 256 episodes. -/
def lossOf (ep : Fin 256 → EReal) : EReal := Ideal.div (∑ b : Fin 256, ep b) ((256 : ℝ) : EReal)

end Cert.Proto

end
-- ==== Proof.Consts.lean ====
/-
  The float words the two programs spell, as the extended reals they denote.
-/
import Idealize.ShloMosaic.PureOps.Ideal

noncomputable section

namespace Cert.Proto.Consts

open Idealize.ShloMosaic

/-- The zero word denotes 0. -/
theorem ofBits_zero : Ideal.ofBits .f32 0x00000000#32 = 0 := by
  simp [Ideal.ofBits, Ideal.ieee]

/-- `1.0` denotes 1. -/
theorem ofBits_one : Ideal.ofBits .f32 0x3F800000#32 = 1 := by
  simp [Ideal.ofBits, Ideal.ieee, -EReal.coe_mul]; norm_num

/-- `2.0` denotes the real 2. -/
theorem ofBits_two : Ideal.ofBits .f32 0x40000000#32 = ((2 : ℝ) : EReal) := by
  simp [Ideal.ofBits, Ideal.ieee, -EReal.coe_mul]; norm_num

/-- `300.0` denotes the real 300. -/
theorem ofBits_300 : Ideal.ofBits .f32 0x43960000#32 = ((300 : ℝ) : EReal) := by
  simp [Ideal.ofBits, Ideal.ieee, -EReal.coe_mul]; norm_num

/-- `256.0` denotes the real 256. -/
theorem ofBits_256 : Ideal.ofBits .f32 0x43800000#32 = ((256 : ℝ) : EReal) := by
  simp [Ideal.ofBits, Ideal.ieee, -EReal.coe_mul]; norm_num

/-- The negative-infinity word denotes the bottom of the extended reals. -/
theorem ofBits_neg_inf : Ideal.ofBits .f32 0xFF800000#32 = ⊥ := by
  simp [Ideal.ofBits, Ideal.ieee]

end Cert.Proto.Consts

end
-- ==== Proof.KArr.lean ====
/-
  The kernel's run with its result named: point `t` of the grid writes rows 8t … 8t+7 of the [256, 1] output array, row
  8t + k holding the number of episode 8t + k; the host lines after the region sum the 256 numbers and divide by 256.

  The steps: each input block at point `t`, read at row `k`, is the argument array read at row 8t + k (the block index on
  axis 0 is the point's number, on the other axes 0); so what the body leaves at row `k` of the output block is episode
  8t + k's number, and what the point writes back is block `t` of one function `G` of the argument arrays; the 32 blocks
  cover the 256 rows (row r lies in the block of point r / 8), so the output array ends holding `G`; the sum over the
  [256, 1] index set re-indexed by the first coordinate is the sum over the episodes, and with the zero word read as 0 and
  the divisor's word as 256 the result buffer holds the mean.
-/
import proofs.«427852_j59596966199581_3_alg».proof.Proof.KTrip
import proofs.«427852_j59596966199581_3_alg».proof.Proof.Spec
import proofs.«427852_j59596966199581_3_alg».proof.Proof.Consts
import Idealize.ShloMosaic.PureOps.Ideal.Laws
import Idealize.ShloMosaic.Lib.Pipeline.Value

noncomputable section

namespace Cert.KernelIdeal.KV

open Cert.KernelIdeal Cert.KernelIdeal.Gen Idealize.ShloMosaic Idealize.ShloMosaic.ValueIdx Idealize.ShloMosaic.TcCoe Idealize.SL.Sem

/-- The kernel's result as a function of the argument arrays: the mean over the episodes of each episode's number. -/
def result (a0 : Vec Ideal S256x100x640 .f32) (a1 : Vec Ideal S256x300x640 .f32) (a2 : Vec Ideal S256x100 .i32) (a3 : Vec Ideal S256x300 .i32) : EReal :=
  Cert.Proto.lossOf fun b => payAt (F := Ideal) (arow0 a2 b) (arow1 a0 b) (arow2 a3 b) (arow3 a1 b)

section Blocks

variable {F : FTy → Type} [FloatOps F]
variable (m : (ℓ : Loc nD τ sig) → Buf (Elt F) ℓ)

/-! ## The blocks as rows of the arrays -/

/-- The index maps over the grid: every window's block index is the point's number on axis 0 and 0 on the other axes. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The four input blocks at point `t` and the four argument arrays as the region finds them, at their literal types. -/
abbrev blk0 (c : Dev nD) (t : Fin cfg0.N) : Vec F S8x100 .i32 := iblk m c 0 t
abbrev blk1 (c : Dev nD) (t : Fin cfg0.N) : Vec F S8x100x640 .f32 := iblk m c 1 t
abbrev blk2 (c : Dev nD) (t : Fin cfg0.N) : Vec F S8x300 .i32 := iblk m c 2 t
abbrev blk3 (c : Dev nD) (t : Fin cfg0.N) : Vec F S8x300x640 .f32 := iblk m c 3 t
abbrev arr0 (c : Dev nD) : Vec F S256x100x640 .f32 := V m c main_arg0
abbrev arr1 (c : Dev nD) : Vec F S256x300x640 .f32 := V m c main_arg1
abbrev arr2 (c : Dev nD) : Vec F S256x100 .i32 := V m c main_arg2
abbrev arr3 (c : Dev nD) : Vec F S256x300 .i32 := V m c main_arg3

/-- Row `k` of point `t`'s block of support labels is episode `8 t + k` of the support labels. -/
theorem brow0_blk (c : Dev nD) (t : Fin cfg0.N) (k : Fin 8) (b : Fin 256) (hb : b.val = 8 * t.val + k.val) :
    brow0 (blk0 m c t) k = arow0 (arr2 m c) b := by
  obtain ⟨e0, e1, -⟩ := idx_facts t
  funext j
  show iblk m c 0 t (ix2 k ⟨(j 1).val, (j 1).isLt⟩) = V m c main_arg2 (ix2 b ⟨(j 1).val, (j 1).isLt⟩)
  unfold iblk
  rw [View.read_apply]
  show V m c main_arg2 _ = V m c main_arg2 _
  congr 1
  funext a
  apply Fin.ext
  match a with
  | ⟨0, _⟩ => show win0_0.index t 0 * 8 + 1 * k.val = b.val; rw [e0, hb]; omega
  | ⟨1, _⟩ => show win0_0.index t 1 * 100 + 1 * (j 1).val = (j 1).val; rw [e1]; omega

/-- Row `k` of point `t`'s block of support vectors is episode `8 t + k` of the support vectors. -/
theorem brow1_blk (c : Dev nD) (t : Fin cfg0.N) (k : Fin 8) (b : Fin 256) (hb : b.val = 8 * t.val + k.val) :
    brow1 (blk1 m c t) k = arow1 (arr0 m c) b := by
  obtain ⟨-, -, e0, e1, e2, -⟩ := idx_facts t
  funext j
  show iblk m c 1 t (ix3 k ⟨(j 1).val, (j 1).isLt⟩ ⟨(j 2).val, (j 2).isLt⟩)
    = V m c main_arg0 (ix3 b ⟨(j 1).val, (j 1).isLt⟩ ⟨(j 2).val, (j 2).isLt⟩)
  unfold iblk
  rw [View.read_apply]
  show V m c main_arg0 _ = V m c main_arg0 _
  congr 1
  funext a
  apply Fin.ext
  match a with
  | ⟨0, _⟩ => show win0_1.index t 0 * 8 + 1 * k.val = b.val; rw [e0, hb]; omega
  | ⟨1, _⟩ => show win0_1.index t 1 * 100 + 1 * (j 1).val = (j 1).val; rw [e1]; omega
  | ⟨2, _⟩ => show win0_1.index t 2 * 640 + 1 * (j 2).val = (j 2).val; rw [e2]; omega

/-- Row `k` of point `t`'s block of query labels is episode `8 t + k` of the query labels. -/
theorem brow2_blk (c : Dev nD) (t : Fin cfg0.N) (k : Fin 8) (b : Fin 256) (hb : b.val = 8 * t.val + k.val) :
    brow2 (blk2 m c t) k = arow2 (arr3 m c) b := by
  obtain ⟨-, -, -, -, -, e0, e1, -⟩ := idx_facts t
  funext j
  show iblk m c 2 t (ix2 k ⟨(j 1).val, (j 1).isLt⟩) = V m c main_arg3 (ix2 b ⟨(j 1).val, (j 1).isLt⟩)
  unfold iblk
  rw [View.read_apply]
  show V m c main_arg3 _ = V m c main_arg3 _
  congr 1
  funext a
  apply Fin.ext
  match a with
  | ⟨0, _⟩ => show win0_2.index t 0 * 8 + 1 * k.val = b.val; rw [e0, hb]; omega
  | ⟨1, _⟩ => show win0_2.index t 1 * 300 + 1 * (j 1).val = (j 1).val; rw [e1]; omega

/-- Row `k` of point `t`'s block of query vectors is episode `8 t + k` of the query vectors. -/
theorem brow3_blk (c : Dev nD) (t : Fin cfg0.N) (k : Fin 8) (b : Fin 256) (hb : b.val = 8 * t.val + k.val) :
    brow3 (blk3 m c t) k = arow3 (arr1 m c) b := by
  obtain ⟨-, -, -, -, -, -, -, e0, e1, e2, -⟩ := idx_facts t
  funext j
  show iblk m c 3 t (ix3 k ⟨(j 1).val, (j 1).isLt⟩ ⟨(j 2).val, (j 2).isLt⟩)
    = V m c main_arg1 (ix3 b ⟨(j 1).val, (j 1).isLt⟩ ⟨(j 2).val, (j 2).isLt⟩)
  unfold iblk
  rw [View.read_apply]
  show V m c main_arg1 _ = V m c main_arg1 _
  congr 1
  funext a
  apply Fin.ext
  match a with
  | ⟨0, _⟩ => show win0_3.index t 0 * 8 + 1 * k.val = b.val; rw [e0, hb]; omega
  | ⟨1, _⟩ => show win0_3.index t 1 * 300 + 1 * (j 1).val = (j 1).val; rw [e1]; omega
  | ⟨2, _⟩ => show win0_3.index t 2 * 640 + 1 * (j 2).val = (j 2).val; rw [e2]; omega

/-! ## The output array -/

/-- Episode `b`'s number, from the four argument arrays. -/
def ep (a0 : Vec F S256x100x640 .f32) (a1 : Vec F S256x300x640 .f32) (a2 : Vec F S256x100 .i32) (a3 : Vec F S256x300 .i32)
    (b : Fin 256) : F .f32 :=
  payAt (arow0 a2 b) (arow1 a0 b) (arow2 a3 b) (arow3 a1 b)

/-- The [256, 1] output array as one function of the argument arrays: row `b` holds episode `b`'s number. -/
def G (a0 : Vec F S256x100x640 .f32) (a1 : Vec F S256x300x640 .f32) (a2 : Vec F S256x100 .i32) (a3 : Vec F S256x300 .i32) :
    Vec F S256x1 .f32 :=
  fun j => ep a0 a1 a2 a3 ⟨(j 0).val, (j 0).isLt⟩

/-- What the body leaves at row `k` of the output block at point `t` is episode `8 t + k`'s number. -/
theorem outsAt_row (c : Dev nD) (t : Fin cfg0.N) (k : Fin 8) (b : Fin 256) (hb : b.val = 8 * t.val + k.val) :
    outsAt0 m c t (ix2 k 0) = ep (arr0 m c) (arr1 m c) (arr2 m c) (arr3 m c) b := by
  unfold outsAt0
  refine (out0_A_4_apply (F := F) c (grid0.coords t) (ms0_0 t) (hs0_0 t) (ms0_1 t) (hs0_1 t) (ms0_2 t) (hs0_2 t)
    (ms0_3 t) (hs0_3 t) (ms0_4 t) (hs0_4 t) (blk0 m c t) (blk1 m c t) (blk2 m c t) (blk3 m c t) k).trans ?_
  rw [brow0_blk m c t k b hb, brow1_blk m c t k b hb, brow2_blk m c t k b hb, brow3_blk m c t k b hb]
  rfl

/-- What point `t` writes back is block `t` of `G` of the argument arrays. -/
theorem flushed_eq (c : Dev nD) (t : Fin cfg0.N) :
    (dats m 0 c).flushed 4 t
      = ((cfg0.win 4).blk t).view.read (Elt F) (G (arr0 m c) (arr1 m c) (arr2 m c) (arr3 m c)) := by
  show (cfg0.win 4).cut (grid0.coords t) ((dats m 0 c).after 4 t) = _
  rw [after0_4]
  obtain ⟨-, -, -, -, -, -, -, -, -, -, e0, e1⟩ := idx_facts t
  funext j
  rw [View.read_apply]
  have h0 : (j 0).val < 8 := (j 0).isLt
  have h1 : (j 1).val < 1 := (j 1).isLt
  have ht : t.val < 32 := t.isLt
  have hj : win0_4.xinj (grid0.coords t) j = ix2 (⟨(j 0).val, h0⟩ : Fin 8) (0 : Fin 1) := by
    funext a; apply Fin.ext
    match a with
    | ⟨0, _⟩ => rfl
    | ⟨1, _⟩ => show (j 1).val = 0; omega
  show outsAt0 m c t (win0_4.xinj (grid0.coords t) j) = _
  rw [hj]
  refine (outsAt_row m c t ⟨(j 0).val, h0⟩ ⟨8 * t.val + (j 0).val, by omega⟩ rfl).trans ?_
  show ep _ _ _ _ _ = ep _ _ _ _ _
  congr 1
  apply Fin.ext
  show 8 * t.val + (j 0).val = win0_4.index t 0 * 8 + 1 * (j 0).val
  rw [e0]; omega

/-- An index of the output array is in point `t`'s block iff each coordinate is in the block's range on its axis. -/
theorem mem_blk4 (t : Fin cfg0.N) (i : S256x1.Idx) :
    i ∈ ((cfg0.win 4).blk t).view.set
      ↔ ∀ a : Fin 2, win0_4.index t a * S8x1.size a ≤ (i a).val ∧ (i a).val < win0_4.index t a * S8x1.size a + S8x1.size a := by
  show i ∈ ((View.whole main_v0).slice (win0_4.rect t)).set ↔ _
  rw [View.set_slice_whole, Rect.mem_set_unit]
  exact Iff.rfl

/-- Row `r` of the output array lies in the block of point `r / 8`, which writes back. -/
theorem cover4 (i : S256x1.Idx) :
    ∃ t : Fin cfg0.N, (cfg0.win 4).flush t = true ∧ i ∈ ((cfg0.win 4).blk t).view.set := by
  have hi0 : (i 0).val < 256 := (i 0).isLt
  have hi1 : (i 1).val < 1 := (i 1).isLt
  have hN : grid0.N = 32 := N_0
  have ht : (i 0).val / 8 < cfg0.N := by show (i 0).val / 8 < grid0.N; omega
  obtain ⟨-, -, -, -, -, -, -, -, -, -, e0, e1⟩ := idx_facts ⟨(i 0).val / 8, ht⟩
  refine ⟨⟨(i 0).val / 8, ht⟩, flush0_4 _, ?_⟩
  rw [mem_blk4]
  intro a
  match a with
  | ⟨0, _⟩ =>
    show win0_4.index ⟨(i 0).val / 8, ht⟩ 0 * 8 ≤ (i 0).val ∧ (i 0).val < win0_4.index ⟨(i 0).val / 8, ht⟩ 0 * 8 + 8
    rw [e0]; show (i 0).val / 8 * 8 ≤ (i 0).val ∧ (i 0).val < (i 0).val / 8 * 8 + 8; omega
  | ⟨1, _⟩ =>
    show win0_4.index ⟨(i 0).val / 8, ht⟩ 1 * 1 ≤ (i 1).val ∧ (i 1).val < win0_4.index ⟨(i 0).val / 8, ht⟩ 1 * 1 + 1
    rw [e1]; omega

/-- The output array after the region is `G` of the argument arrays. -/
theorem final4 (c : Dev nD) :
    (dats m 0 c).arrAt 4 cfg0.N = G (arr0 m c) (arr1 m c) (arr2 m c) (arr3 m c) :=
  (dats m 0 c).arrAt_eq_of_cover 4 (G (arr0 m c) (arr1 m c) (arr2 m c) (arr3 m c)) (fun t _ => flushed_eq m c t) cover4

end Blocks

/-! ## The host lines after the region, and the run -/

/-- A sum over the [256, 1] index set of a function of the first coordinate is the sum over the 256 rows. -/
theorem sum_rows (f : Fin 256 → EReal) : ∑ i : S256x1.Idx, f ⟨(i 0).val, (i 0).isLt⟩ = ∑ b : Fin 256, f b := by
  refine (sum_idx2 (n0 := 256) (n1 := 1) (fun i => f ⟨(i 0).val, (i 0).isLt⟩)).trans ?_
  refine Finset.sum_congr rfl fun a _ => ?_
  rw [Fin.sum_univ_one]

/-- The result buffer after the host lines: the 256 numbers of the output array summed from 0 and divided by 256. -/
theorem tail_eq (m : (ℓ : Loc nD τ sig) → Buf (Elt Ideal) ℓ) (c : Dev nD) :
    Pipeline.afterTail₀ cfgs (dats m) 0 (V0 m) [hostOps1] c main_v2
      = fun _ => result (m ((c.tc : Thread nD τ).loc main_arg0)) (m ((c.tc : Thread nD τ).loc main_arg1))
              (m ((c.tc : Thread nD τ).loc main_arg2)) (m ((c.tc : Thread nD τ).loc main_arg3)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0)
      = G (arr0 m c) (arr1 m c) (arr2 m c) (arr3 m c) :=
    (Pipeline.withArrays_arr spec0 launch0.win.arr_inj c _ _ 4).trans (final4 m c)
  rw [hw]
  funext j
  show Ideal.div (Ideal.hostReduceAdd reducesTo_S256x1_S_d0_1 (G (arr0 m c) (arr1 m c) (arr2 m c) (arr3 m c))
      (Ideal.ofBits .f32 0x00000000#32) j) (Ideal.ofBits .f32 0x43800000#32) = _
  rw [Ideal.hostReduceAdd_total reducesTo_S256x1_S_d0_1 (fun b => b.elim0), Cert.Proto.Consts.ofBits_zero, zero_add,
    Cert.Proto.Consts.ofBits_256]
  unfold result Cert.Proto.lossOf
  exact congrArg (fun x => Ideal.div x ((256 : ℝ) : EReal)) (sum_rows (ep (arr0 m c) (arr1 m c) (arr2 m c) (arr3 m c)))

/-- The result buffer is unscoped and no window's array, so the region passes it by. -/
theorem v2_rest : main_v2 ∈ Pipeline.restRefs sig (cfgs 0).spec :=
  Pipeline.mem_restRefs_of main_v2 rfl (fun w => by fin_cases w <;> decide)

/-- Every weakly fair execution of the kernel's program ends with the result buffer at `result` of the argument arrays, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = (fun _ => result (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 main_v2 v2_rest).trans (tail_eq m c),
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 2).trans (((dats m 0 c).arrAt_in 2 rfl _).trans ((A_eq m c 2).trans (V_main_arg3 m c)))⟩)
    (run_main m ρ)

end Cert.KernelIdeal.KV

end
-- ==== Proof.KPay2.lean ====
/-
  The first of one trip's three values at the extended reals: entry (q, c) of the shifted logits is the kernel's logit of
  query `q` at class `c` minus the maximum of query `q`'s row of logits.
-/
import proofs.«427852_j59596966199581_3_alg».proof.Proof.KDefs
import proofs.«427852_j59596966199581_3_alg».proof.Proof.Spec
import proofs.«427852_j59596966199581_3_alg».proof.Proof.Consts
import Idealize.ShloMosaic.PureOps.Ideal.Laws
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.ValueIdx

/-! ## Layout operations at explicit coordinates: the column forms -/

/-- A vector of length `a` viewed as one column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The one-hot weights -/

/-- A widened truth bit read as a signed integer and converted: 1 for true, 0 for false. -/
theorem sitofp_ofBool (t : Bool) :
    (((((BitVec.ofBool t).setWidth 32).toInt : ℤ) : ℝ) : EReal) = if t then 1 else 0 := by
  cases t
  · have h : ((BitVec.ofBool false).setWidth 32).toInt = 0 := by decide
    rw [h]; simp
  · have h : ((BitVec.ofBool true).setWidth 32).toInt = 1 := by decide
    rw [h]; simp

/-- The kernel's one-hot entry, on words: the converted, widened bit of `t = k` is the specification's weight. -/
theorem oh_word (t : BitVec 32) (c : Fin 20) :
    (FloatOps.sitofp (F := Ideal) .f32 ((IntOp.cmpi .eq t (BitVec.ofNat 32 c.val)).setWidth 32) : EReal)
      = Cert.Proto.oh t c := by
  show (((((BitVec.ofBool (t == BitVec.ofNat 32 c.val)).setWidth 32).toInt : ℤ) : ℝ) : EReal) = _
  rw [sitofp_ofBool]
  unfold Cert.Proto.oh
  by_cases h : t = BitVec.ofNat 32 c.val
  · rw [if_pos h, if_pos (by simpa using h)]
  · rw [if_neg h, if_neg (by simpa using h)]

/-- The one-hot matrix of the support labels, as the kernel builds it from the row of labels. -/
def ohV (v2 : Vec Ideal S1x100 .i32) : FVec Ideal S100x20 .f32 :=
  sitofp .f32 (extui 32 (cmpi .eq
    (broadcastTo S100x20 (shapeCast S100x1 (shapeCast S100 v2 shapeCasts_S1x100_S100) shapeCasts_S100_S100x1) broadcasts_S100x1_S100x20)
    (iota .tc S100x20 32 [1] iota_S100x20_d1_w32)) natLt_1_32)

/-- Its entry at (s, c) is the one-hot weight of support label `s` at class `c`. -/
theorem ohV_apply (v2 : Vec Ideal S1x100 .i32) (s : Fin 100) (c : Fin 20) :
    ohV v2 (ix2 s c) = Cert.Proto.oh (v2 (ix2 0 s)) c := by
  unfold ohV
  rw [sitofp_apply, extui_apply]
  show (FloatOps.sitofp (F := Ideal) .f32 ((IntOp.cmpi .eq _ _).setWidth 32) : EReal) = _
  rw [broadcastTo_a1_ab_apply, shapeCast_a_a1_apply, shapeCast_1a_a_apply, iota_single_apply]
  exact oh_word _ c

/-! ## The reductions at explicit coordinates -/

/-- The sums down the columns of a `[100, 20]` matrix. -/
theorem colSum_100x20_apply (X : FVec Ideal S100x20 .f32) (h : S100x20.Reduces [0] S20) (hφ : FKind.Formats .f32)
    (hacc : (0x00000000#32 : BitVec 32) = 0x00000000#32) (c : Fin 20) :
    multiReduction .add [0] S20 X 0x00000000#32 h hφ hacc (ix1 c) = ∑ s : Fin 100, X (ix2 s c) := by
  refine (Ideal.multiReduction_add_single X _ h hφ hacc (ix1 c)).trans ?_
  refine Finset.sum_congr rfl fun s _ => congrArg X ?_
  funext a
  match a with
  | ⟨0, _⟩ => rfl
  | ⟨1, _⟩ => rfl

/-- The sums along the rows of a `[20, 640]` matrix. -/
theorem rowSum_20x640_apply (X : FVec Ideal S20x640 .f32) (h : S20x640.Reduces [1] S20) (hφ : FKind.Formats .f32)
    (hacc : (0x00000000#32 : BitVec 32) = 0x00000000#32) (c : Fin 20) :
    multiReduction .add [1] S20 X 0x00000000#32 h hφ hacc (ix1 c) = ∑ d : Fin 640, X (ix2 c d) := by
  refine (Ideal.multiReduction_add_single X _ h hφ hacc (ix1 c)).trans ?_
  refine Finset.sum_congr rfl fun d _ => congrArg X ?_
  funext a
  match a with
  | ⟨0, _⟩ => rfl
  | ⟨1, _⟩ => rfl

/-- The maxima along the rows of a `[300, 20]` matrix, folded from −∞. -/
theorem rowMax_300x20_apply (X : FVec Ideal S300x20 .f32) (h : S300x20.Reduces [1] S300) (hφ : FKind.Formats .f32)
    (hacc : (0xFF800000#32 : BitVec 32) = 0xFF800000#32) (q : Fin 300) :
    multiReduction .maximumf [1] S300 X 0xFF800000#32 h hφ hacc (ix1 q) = Cert.Proto.rowMax (fun c => X (ix2 q c)) := by
  refine (Ideal.multiReduction_maximumf_single X _ h hφ hacc (ix1 q)).trans ?_
  rw [Ideal.ofBits_def, Cert.Proto.Consts.ofBits_neg_inf]
  unfold Cert.Proto.rowMax
  refine congrArg (fun f => Finset.fold max ⊥ f Finset.univ) (funext fun c => congrArg X ?_)
  funext a
  match a with
  | ⟨0, _⟩ => rfl
  | ⟨1, _⟩ => rfl

/-! ## The two products at explicit coordinates

The first product contracts the support axis of the one-hot matrix against the support vectors: entry (c, d) pairs
(s, c) with (s, d). The second contracts the coordinate axis of the queries against the prototypes: entry (q, c) pairs
(q, d) with (c, d). -/

theorem lhs_proto_0 (i : S20x640.Idx) (k : dot_S100x20_S100x640_S20x640_0_0_1_1_n_n.contr.Idx) :
    (dot_S100x20_S100x640_S20x640_0_0_1_1_n_n.lhsIdx i k 0).val = (k ⟨0, by decide⟩).val :=
  dot_S100x20_S100x640_S20x640_0_0_1_1_n_n.lhsIdx_val_of_single rfl i k
theorem lhs_proto_1 (i : S20x640.Idx) (k : dot_S100x20_S100x640_S20x640_0_0_1_1_n_n.contr.Idx) :
    (dot_S100x20_S100x640_S20x640_0_0_1_1_n_n.lhsIdx i k 1).val = (i 0).val := by
  unfold DotDims.lhsIdx
  rw [dif_neg (show ¬(1 : Fin S100x20.rank) ∈ dot_S100x20_S100x640_S20x640_0_0_1_1_n_n.lhsBatch by decide), dif_pos (show (1 : Fin S100x20.rank) ∈ dot_S100x20_S100x640_S20x640_0_0_1_1_n_n.lhsNonContracting by decide)]
  rfl
theorem rhs_proto_0 (i : S20x640.Idx) (k : dot_S100x20_S100x640_S20x640_0_0_1_1_n_n.contr.Idx) :
    (dot_S100x20_S100x640_S20x640_0_0_1_1_n_n.rhsIdx i k 0).val = (k ⟨0, by decide⟩).val :=
  dot_S100x20_S100x640_S20x640_0_0_1_1_n_n.rhsIdx_val_of_single rfl i k
theorem rhs_proto_1 (i : S20x640.Idx) (k : dot_S100x20_S100x640_S20x640_0_0_1_1_n_n.contr.Idx) :
    (dot_S100x20_S100x640_S20x640_0_0_1_1_n_n.rhsIdx i k 1).val = (i 1).val := by
  unfold DotDims.rhsIdx
  rw [dif_neg (show ¬(1 : Fin S100x640.rank) ∈ dot_S100x20_S100x640_S20x640_0_0_1_1_n_n.rhsBatch by decide), dif_pos (show (1 : Fin S100x640.rank) ∈ dot_S100x20_S100x640_S20x640_0_0_1_1_n_n.rhsNonContracting by decide)]
  rfl

/-- The first product into the zero accumulator, at (c, d): the sum over the support index. -/
theorem matmul_proto_apply (L : FVec Ideal S100x20 .bf16) (R : FVec Ideal S100x640 .bf16) (c : Fin 20) (d : Fin 640) :
    matmul dot_S100x20_S100x640_S20x640_0_0_1_1_n_n none L R (constant (F := Ideal) S20x640 .f32 0x00000000#32) (ix2 c d)
      = ∑ s : Fin 100, L (ix2 s c) * R (ix2 s d) := by
  simp only [matmul]
  rw [Ideal.matmul_constant_zero_apply, ← Equiv.sum_comp (contrEquiv1 dot_S100x20_S100x640_S20x640_0_0_1_1_n_n 100 rfl rfl).symm]
  refine Finset.sum_congr rfl fun k _ => ?_
  have hk := contrEquiv1_symm_val dot_S100x20_S100x640_S20x640_0_0_1_1_n_n 100 rfl rfl k
  have el : dot_S100x20_S100x640_S20x640_0_0_1_1_n_n.lhsIdx (ix2 c d) ((contrEquiv1 dot_S100x20_S100x640_S20x640_0_0_1_1_n_n 100 rfl rfl).symm k) = ix2 k c := funext fun a => Fin.ext (by
    match a with
    | ⟨0, _⟩ => exact (lhs_proto_0 _ _).trans hk
    | ⟨1, _⟩ => exact lhs_proto_1 _ _)
  have er : dot_S100x20_S100x640_S20x640_0_0_1_1_n_n.rhsIdx (ix2 c d) ((contrEquiv1 dot_S100x20_S100x640_S20x640_0_0_1_1_n_n 100 rfl rfl).symm k) = ix2 k d := funext fun a => Fin.ext (by
    match a with
    | ⟨0, _⟩ => exact (rhs_proto_0 _ _).trans hk
    | ⟨1, _⟩ => exact rhs_proto_1 _ _)
  rw [el, er]

theorem lhs_cross_0 (i : S300x20.Idx) (k : dot_S300x640_S20x640_S300x20_1_1_0_0_n_n.contr.Idx) :
    (dot_S300x640_S20x640_S300x20_1_1_0_0_n_n.lhsIdx i k 0).val = (i 0).val := by
  unfold DotDims.lhsIdx
  rw [dif_neg (show ¬(0 : Fin S300x640.rank) ∈ dot_S300x640_S20x640_S300x20_1_1_0_0_n_n.lhsBatch by decide), dif_pos (show (0 : Fin S300x640.rank) ∈ dot_S300x640_S20x640_S300x20_1_1_0_0_n_n.lhsNonContracting by decide)]
  rfl
theorem lhs_cross_1 (i : S300x20.Idx) (k : dot_S300x640_S20x640_S300x20_1_1_0_0_n_n.contr.Idx) :
    (dot_S300x640_S20x640_S300x20_1_1_0_0_n_n.lhsIdx i k 1).val = (k ⟨0, by decide⟩).val :=
  dot_S300x640_S20x640_S300x20_1_1_0_0_n_n.lhsIdx_val_of_single rfl i k
theorem rhs_cross_0 (i : S300x20.Idx) (k : dot_S300x640_S20x640_S300x20_1_1_0_0_n_n.contr.Idx) :
    (dot_S300x640_S20x640_S300x20_1_1_0_0_n_n.rhsIdx i k 0).val = (i 1).val := by
  unfold DotDims.rhsIdx
  rw [dif_neg (show ¬(0 : Fin S20x640.rank) ∈ dot_S300x640_S20x640_S300x20_1_1_0_0_n_n.rhsBatch by decide), dif_pos (show (0 : Fin S20x640.rank) ∈ dot_S300x640_S20x640_S300x20_1_1_0_0_n_n.rhsNonContracting by decide)]
  rfl
theorem rhs_cross_1 (i : S300x20.Idx) (k : dot_S300x640_S20x640_S300x20_1_1_0_0_n_n.contr.Idx) :
    (dot_S300x640_S20x640_S300x20_1_1_0_0_n_n.rhsIdx i k 1).val = (k ⟨0, by decide⟩).val :=
  dot_S300x640_S20x640_S300x20_1_1_0_0_n_n.rhsIdx_val_of_single rfl i k

/-- The second product into the zero accumulator, at (q, c): the sum over the coordinate. -/
theorem matmul_cross_apply (L : FVec Ideal S300x640 .bf16) (R : FVec Ideal S20x640 .bf16) (q : Fin 300) (c : Fin 20) :
    matmul dot_S300x640_S20x640_S300x20_1_1_0_0_n_n none L R (constant (F := Ideal) S300x20 .f32 0x00000000#32) (ix2 q c)
      = ∑ d : Fin 640, L (ix2 q d) * R (ix2 c d) := by
  simp only [matmul]
  rw [Ideal.matmul_constant_zero_apply, ← Equiv.sum_comp (contrEquiv1 dot_S300x640_S20x640_S300x20_1_1_0_0_n_n 640 rfl rfl).symm]
  refine Finset.sum_congr rfl fun k _ => ?_
  have hk := contrEquiv1_symm_val dot_S300x640_S20x640_S300x20_1_1_0_0_n_n 640 rfl rfl k
  have el : dot_S300x640_S20x640_S300x20_1_1_0_0_n_n.lhsIdx (ix2 q c) ((contrEquiv1 dot_S300x640_S20x640_S300x20_1_1_0_0_n_n 640 rfl rfl).symm k) = ix2 q k := funext fun a => Fin.ext (by
    match a with
    | ⟨0, _⟩ => exact lhs_cross_0 _ _
    | ⟨1, _⟩ => exact (lhs_cross_1 _ _).trans hk)
  have er : dot_S300x640_S20x640_S300x20_1_1_0_0_n_n.rhsIdx (ix2 q c) ((contrEquiv1 dot_S300x640_S20x640_S300x20_1_1_0_0_n_n 640 rfl rfl).symm k) = ix2 c k := funext fun a => Fin.ext (by
    match a with
    | ⟨0, _⟩ => exact rhs_cross_0 _ _
    | ⟨1, _⟩ => exact (rhs_cross_1 _ _).trans hk)
  rw [el, er]

/-! ## The stages of the payload

Each stage is the kernel's own chain of operations, named, with its entry at explicit coordinates read as the
specification's quantity. -/

/-- The class counts guarded from below by 1. -/
def cntV (v2 : Vec Ideal S1x100 .i32) : FVec Ideal S20 .f32 :=
  maximumf (multiReduction (F := Ideal) .add [0] S20 (ohV v2) 0x00000000#32 reduces_S100x20_S20 (.inl rfl) rfl)
    (broadcast S20 (Scalar.ofBits (F := Ideal) .f32 0x3F800000#32))

/-- Its entry at `c` is `max (count of c) 1`. -/
theorem cntV_apply (v2 : Vec Ideal S1x100 .i32) (c : Fin 20) :
    cntV v2 (ix1 c) = max (Cert.Proto.cnt (fun s => v2 (ix2 0 s)) c) 1 := by
  unfold cntV
  rw [maximumf_apply, colSum_100x20_apply, broadcast_apply]
  show max _ (Ideal.ofBits .f32 0x3F800000#32) = _
  rw [Cert.Proto.Consts.ofBits_one]
  unfold Cert.Proto.cnt
  simp only [ohV_apply]

/-- The prototypes: the one-hot matrix contracted with the support vectors, over the guarded counts. -/
def protoV (v2 : Vec Ideal S1x100 .i32) (v5 : Vec Ideal S1x100x640 .f32) : FVec Ideal S20x640 .f32 :=
  divf
    (matmul dot_S100x20_S100x640_S20x640_0_0_1_1_n_n none
      (truncf .bf16 (ohV v2) bitsLt_bf16_f32)
      (truncf .bf16 (shapeCast S100x640 v5 shapeCasts_S1x100x640_S100x640 : FVec Ideal S100x640 .f32) bitsLt_bf16_f32)
      (constant (F := Ideal) S20x640 .f32 0x00000000#32))
    (broadcastTo S20x640 (shapeCast S20x1 (cntV v2) shapeCasts_S20_S20x1) broadcasts_S20x1_S20x640)

/-- Its entry at (c, d) is the specification's prototype of class `c` at coordinate `d`. -/
theorem protoV_apply (v2 : Vec Ideal S1x100 .i32) (v5 : Vec Ideal S1x100x640 .f32) (c : Fin 20) (d : Fin 640) :
    protoV v2 v5 (ix2 c d) = Cert.Proto.protoK (fun s => v2 (ix2 0 s)) (fun s d => v5 (ix3 0 s d)) c d := by
  unfold protoV
  rw [divf_apply, matmul_proto_apply, broadcastTo_a1_ab_apply, shapeCast_a_a1_apply, cntV_apply]
  unfold Cert.Proto.protoK Cert.Proto.psum
  refine congrArg (fun x => Ideal.div x _) (Finset.sum_congr rfl fun s _ => ?_)
  rw [truncf_apply, truncf_apply, ohV_apply, shapeCast_1ab_ab_apply]

/-- The logits: 0 − (‖p_c‖² − 2 q·p_c), the squared norms broadcast down the rows. -/
def logitV (v2 : Vec Ideal S1x100 .i32) (v5 : Vec Ideal S1x100x640 .f32) (v26 : Vec Ideal S1x300x640 .f32) :
    FVec Ideal S300x20 .f32 :=
  subf (broadcast S300x20 (Scalar.ofBits (F := Ideal) .f32 0x00000000#32))
    (subf
      (broadcastTo S300x20
        (shapeCast S1x20
          (multiReduction (F := Ideal) .add [1] S20 (mulf (protoV v2 v5) (protoV v2 v5)) 0x00000000#32 reduces_S20x640_S20 (.inl rfl) rfl)
          shapeCasts_S20_S1x20)
        broadcasts_S1x20_S300x20)
      (mulf (broadcast S300x20 (Scalar.ofBits (F := Ideal) .f32 0x40000000#32))
        (matmul dot_S300x640_S20x640_S300x20_1_1_0_0_n_n none
          (truncf .bf16 (shapeCast S300x640 v26 shapeCasts_S1x300x640_S300x640 : FVec Ideal S300x640 .f32) bitsLt_bf16_f32)
          (truncf .bf16 (protoV v2 v5) bitsLt_bf16_f32)
          (constant (F := Ideal) S300x20 .f32 0x00000000#32))))

/-- Its entry at (q, c) is the specification's logit of query `q` at class `c`. -/
theorem logitV_apply (v2 : Vec Ideal S1x100 .i32) (v5 : Vec Ideal S1x100x640 .f32) (v26 : Vec Ideal S1x300x640 .f32)
    (q : Fin 300) (c : Fin 20) :
    logitV v2 v5 v26 (ix2 q c)
      = Cert.Proto.logitK (Cert.Proto.protoK (fun s => v2 (ix2 0 s)) (fun s d => v5 (ix3 0 s d))) (fun q d => v26 (ix3 0 q d)) q c := by
  unfold logitV
  rw [subf_apply, subf_apply, mulf_apply, broadcast_apply, broadcast_apply, broadcastTo_1b_ab_apply, shapeCast_a_1a_apply,
    rowSum_20x640_apply, matmul_cross_apply]
  show Ideal.ofBits .f32 0x00000000#32 - (_ - Ideal.ofBits .f32 0x40000000#32 * _) = _
  rw [Cert.Proto.Consts.ofBits_zero, Cert.Proto.Consts.ofBits_two]
  unfold Cert.Proto.logitK Cert.Proto.psq Cert.Proto.cross
  simp only [mulf_apply, truncf_apply, protoV_apply, shapeCast_1ab_ab_apply]

/-- The payload is the logits minus their row maxima broadcast along the rows. -/
theorem pay2_eq (v2 : Vec Ideal S1x100 .i32) (v5 : Vec Ideal S1x100x640 .f32) (v26 : Vec Ideal S1x300x640 .f32) :
    k0_pay2 (F := Ideal) v2 v5 v26
      = subf (logitV v2 v5 v26)
          (broadcastTo S300x20
            (shapeCast S300x1
              (multiReduction (F := Ideal) .maximumf [1] S300 (logitV v2 v5 v26) 0xFF800000#32 reduces_S300x20_S300 (.inl rfl) rfl)
              shapeCasts_S300_S300x1)
            broadcasts_S300x1_S300x20) := rfl

/-- The shifted logits at (q, c): the kernel's logit minus its row's maximum. -/
theorem pay2_apply (v2 : Vec Ideal S1x100 .i32) (v5 : Vec Ideal S1x100x640 .f32) (v26 : Vec Ideal S1x300x640 .f32) (q : Fin 300) (c : Fin 20) :
    k0_pay2 (F := Ideal) v2 v5 v26 (ix2 q c)
      = Cert.Proto.logitK (Cert.Proto.protoK (fun s => v2 (ix2 0 s)) (fun s d => v5 (ix3 0 s d))) (fun q d => v26 (ix3 0 q d)) q c
        - Cert.Proto.rowMax (Cert.Proto.logitK (Cert.Proto.protoK (fun s => v2 (ix2 0 s)) (fun s d => v5 (ix3 0 s d))) (fun q d => v26 (ix3 0 q d)) q) := by
  rw [pay2_eq, subf_apply, broadcastTo_a1_ab_apply, shapeCast_a_a1_apply, rowMax_300x20_apply, logitV_apply]
  refine congrArg (fun f => _ - Cert.Proto.rowMax f) (funext fun c' => ?_)
  exact logitV_apply v2 v5 v26 q c'

end Cert.KernelIdeal.KV

end
-- ==== Proof.KPay.lean ====
/-
  One trip's number at the extended reals is the kernel's loss of the episode (Spec.lean's `episodeK`) of the four rows.
-/
import proofs.«427852_j59596966199581_3_alg».proof.Proof.KDefs
import proofs.«427852_j59596966199581_3_alg».proof.Proof.KPay2
import proofs.«427852_j59596966199581_3_alg».proof.Proof.Spec
import proofs.«427852_j59596966199581_3_alg».proof.Proof.Consts
import Idealize.ShloMosaic.PureOps.Ideal.Laws
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.ValueIdx

/-! ## The one-hot weight as the kernel spells it -/

/-- The comparison bit of a label word with a class's number, widened and converted, is the one-hot weight. -/
theorem onehot_word (t : BitVec 32) (c : Fin 20) :
    FloatOps.sitofp (F := Ideal) .f32 ((IntOp.cmpi .eq t (BitVec.ofNat 32 c.val)).setWidth 32) = Cert.Proto.oh t c := by
  unfold Cert.Proto.oh
  by_cases h : t = BitVec.ofNat 32 c.val
  · have hb : IntOp.cmpi .eq t (BitVec.ofNat 32 c.val) = 1#1 := by simp [IntOp.cmpi, h]
    rw [if_pos h, hb]
    show (((((1#1 : BitVec 1).setWidth 32).toInt : ℤ) : ℝ) : EReal) = 1
    have : ((1#1 : BitVec 1).setWidth 32).toInt = 1 := by decide
    rw [this]; simp
  · have hf : (t == BitVec.ofNat 32 c.val) = false := beq_eq_false_iff_ne.2 h
    have hb : IntOp.cmpi .eq t (BitVec.ofNat 32 c.val) = 0#1 := by simp [IntOp.cmpi, hf]
    rw [if_neg h, hb]
    show (((((0#1 : BitVec 1).setWidth 32).toInt : ℤ) : ℝ) : EReal) = 0
    have : ((0#1 : BitVec 1).setWidth 32).toInt = 0 := by decide
    rw [this]; simp

/-! ## A row's sum over the classes and the sum over the queries -/

/-- The sum over the classes of a `[300, 20]` array, at query `q`. -/
theorem rowSum_apply (src : FVec Ideal S300x20 .f32) (h : S300x20.Reduces [1] S300) (hφ : FKind.Formats .f32)
    (hacc : (0x00000000#32 : BitVec 32) = FKind.add.neutral .f32 hφ) (q : Fin 300) :
    multiReduction (F := Ideal) .add [1] S300 src 0x00000000#32 h hφ hacc (ix1 q) = ∑ c : Fin 20, src (ix2 q c) := by
  refine (Ideal.multiReduction_add_single src 0x00000000#32 h hφ hacc (ix1 q)).trans ?_
  refine Finset.sum_congr rfl fun c _ => congrArg src ?_
  funext a
  match a with
  | ⟨0, _⟩ => exact Fin.ext rfl
  | ⟨1, _⟩ => exact Fin.ext rfl

/-- The sum over the queries of a `[1, 300]` array. -/
theorem colSum_apply (src : FVec Ideal S1x300 .f32) (h : S1x300.Reduces [1] S1) (hφ : FKind.Formats .f32)
    (hacc : (0x00000000#32 : BitVec 32) = FKind.add.neutral .f32 hφ) (u : Fin 1) :
    multiReduction (F := Ideal) .add [1] S1 src 0x00000000#32 h hφ hacc (ix1 u) = ∑ q : Fin 300, src (ix2 u q) := by
  refine (Ideal.multiReduction_add_single src 0x00000000#32 h hφ hacc (ix1 u)).trans ?_
  refine Finset.sum_congr rfl fun q _ => congrArg src ?_
  funext a
  match a with
  | ⟨0, _⟩ => exact Fin.ext rfl
  | ⟨1, _⟩ => exact Fin.ext rfl

/-! ## The log of the row's sum of exponentials -/

/-- Exponentials, the sum over the classes, the column cast, the logarithm and the broadcast back, at `(q, c)`. -/
theorem lse_apply (x : FVec Ideal S300x20 .f32) (hr : S300x20.Reduces [1] S300) (hφ : FKind.Formats .f32)
    (hacc : (0x00000000#32 : BitVec 32) = FKind.add.neutral .f32 hφ) (hc : S300.ShapeCasts S300x1)
    (hb : S300x1.Broadcasts S300x20) (q : Fin 300) (c : Fin 20) :
    broadcastTo S300x20 (log (shapeCast S300x1 (multiReduction (F := Ideal) .add [1] S300 (exp x) 0x00000000#32 hr hφ hacc) hc)) hb (ix2 q c)
      = Ideal.log (∑ c' : Fin 20, Ideal.exp (x (ix2 q c'))) := by
  refine (broadcastTo_a1_ab_apply _ hb q c).trans ?_
  show Ideal.log (shapeCast S300x1 (multiReduction (F := Ideal) .add [1] S300 (exp x) 0x00000000#32 hr hφ hacc) hc (ix2 q (0 : Fin 1))) = _
  refine congrArg Ideal.log ?_
  refine (shapeCast_a_a1_apply _ hc q 0).trans ?_
  exact rowSum_apply (exp x) hr hφ hacc q

/-- The second of the trip's three values at `(q, c)`: the logarithm of the sum over the classes of the exponentials of
    the first one's row `q`. -/
theorem pay3_apply (v2 : Vec Ideal S1x100 .i32) (v5 : Vec Ideal S1x100x640 .f32) (v26 : Vec Ideal S1x300x640 .f32)
    (q : Fin 300) (c : Fin 20) :
    k0_pay3 (F := Ideal) v2 v5 v26 (ix2 q c)
      = Ideal.log (∑ c' : Fin 20, Ideal.exp (k0_pay2 (F := Ideal) v2 v5 v26 (ix2 q c'))) := by
  unfold k0_pay3
  exact lse_apply (k0_pay2 (F := Ideal) v2 v5 v26) _ _ _ _ _ q c

/-! ## The query's label, the class's number and the weight, at `(q, c)` -/

/-- The label row cast to a vector, then to a column, then broadcast over the classes, reads the label of query `q`. -/
theorem label_apply (v48 : Vec Ideal S1x300 .i32) (h1 : S1x300.ShapeCasts S300) (h2 : S300.ShapeCasts S300x1)
    (h3 : S300x1.Broadcasts S300x20) (q : Fin 300) (c : Fin 20) :
    broadcastTo S300x20 (shapeCast S300x1 (shapeCast S300 v48 h1) h2) h3 (ix2 q c) = v48 (ix2 0 q) := by
  refine (broadcastTo_a1_ab_apply _ h3 q c).trans ?_
  refine (shapeCast_a_a1_apply _ h2 q 0).trans ?_
  exact shapeCast_1a_a_apply v48 h1 q

/-- The count along the classes reads the class's number. -/
theorem classNo_apply (h : S300x20.Iotas .tc 32 [1]) (q : Fin 300) (c : Fin 20) :
    iota .tc S300x20 32 [1] h (ix2 q c) = BitVec.ofNat 32 c.val :=
  iota_single_apply .tc S300x20 32 1 h (ix2 q c)

/-- The kernel's weight array at `(q, c)` is the one-hot weight of query `q`'s label at class `c`. -/
theorem weight_apply (v48 : Vec Ideal S1x300 .i32) (h1 : S1x300.ShapeCasts S300) (h2 : S300.ShapeCasts S300x1)
    (h3 : S300x1.Broadcasts S300x20) (hi : S300x20.Iotas .tc 32 [1]) (hw : 1 < 32) (q : Fin 300) (c : Fin 20) :
    (sitofp .f32 (extui 32 (cmpi .eq (broadcastTo S300x20 (shapeCast S300x1 (shapeCast S300 v48 h1) h2) h3)
        (iota .tc S300x20 32 [1] hi)) hw) : FVec Ideal S300x20 .f32) (ix2 q c)
      = Cert.Proto.oh (v48 (ix2 0 q)) c := by
  show FloatOps.sitofp (F := Ideal) .f32
      ((IntOp.cmpi .eq (broadcastTo S300x20 (shapeCast S300x1 (shapeCast S300 v48 h1) h2) h3 (ix2 q c))
        (iota .tc S300x20 32 [1] hi (ix2 q c))).setWidth 32) = _
  rw [label_apply v48 h1 h2 h3 q c, classNo_apply hi q c]
  exact onehot_word _ c

/-! ## The mean over the queries, and the third value at its one index -/

/-- The element a `[1, 1]` array is read at by the extraction at position (0, 0). -/
theorem extractAt_00 {α : Type} (x : S1x1.Idx → α) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => exact Fin.ext rfl
  | ⟨1, _⟩ => exact Fin.ext rfl

/-- A vector over the queries laid as a row, summed, read out and divided by 300: the mean of its 300 entries. -/
theorem mean_apply (n : FVec Ideal S300 .f32) (h1 : S300.ShapeCasts S1x300) (hr : S1x300.Reduces [1] S1)
    (hφ : FKind.Formats .f32) (hacc : (0x00000000#32 : BitVec 32) = FKind.add.neutral .f32 hφ)
    (h2 : S1.ShapeCasts S1x1) (hp : ∀ a, (![0, 0] : Fin 2 → Nat) a < S1x1.size a) :
    shapeCast S1x1 (divf (broadcast S1 (extractAt ![0, 0] (shapeCast S1x1
        (multiReduction (F := Ideal) .add [1] S1 (shapeCast S1x300 n h1) 0x00000000#32 hr hφ hacc) h2) hp))
      (broadcast S1 (Scalar.ofBits (F := Ideal) .f32 0x43960000#32))) h2 (ix2 0 0)
      = Ideal.div (∑ q : Fin 300, n (ix1 q)) ((300 : ℝ) : EReal) := by
  refine (shapeCast_a_1a_apply _ h2 0 0).trans ?_
  refine (divf_apply _ _ _).trans ?_
  refine congrArg₂ Ideal.div ?_ Cert.Proto.Consts.ofBits_300
  show extractAt ![0, 0] (shapeCast S1x1
      (multiReduction (F := Ideal) .add [1] S1 (shapeCast S1x300 n h1) 0x00000000#32 hr hφ hacc) h2) hp = _
  refine (extractAt_00 _ hp).trans ?_
  refine (shapeCast_a_1a_apply _ h2 0 0).trans ?_
  refine (colSum_apply _ hr hφ hacc 0).trans ?_
  exact Finset.sum_congr rfl fun q _ => shapeCast_a_1a_apply n h1 0 q

/-- The third of the trip's three values at its one index, from any two `[300, 20]` arrays and the query labels: the
    mean over the queries of 0 minus the one-hot weighted sum over the classes of the two arrays' difference. -/
theorem pay1_apply (v40 v45 : FVec Ideal S300x20 .f32) (v48 : Vec Ideal S1x300 .i32) :
    k0_pay1 (F := Ideal) v40 v45 v48 (ix2 0 0)
      = Ideal.div (∑ q : Fin 300,
          (0 - ∑ c : Fin 20, (v40 (ix2 q c) - v45 (ix2 q c)) * Cert.Proto.oh (v48 (ix2 0 q)) c)) ((300 : ℝ) : EReal) := by
  unfold k0_pay1
  refine (mean_apply _ _ _ _ _ _ _).trans ?_
  refine congrArg (fun s => Ideal.div s ((300 : ℝ) : EReal)) (Finset.sum_congr rfl fun q _ => ?_)
  refine (subf_apply _ _ _).trans ?_
  refine congrArg₂ (· - ·) Cert.Proto.Consts.ofBits_zero ?_
  refine (rowSum_apply _ _ _ _ q).trans ?_
  refine Finset.sum_congr rfl fun c _ => ?_
  refine (mulf_apply _ _ _).trans ?_
  exact congrArg₂ (· * ·) (subf_apply v40 v45 _) (weight_apply v48 _ _ _ _ _ q c)

/-- The trip's number is the episode's loss as the kernel computes it. -/
theorem payAt_eq (v2 : Vec Ideal S1x100 .i32) (v5 : Vec Ideal S1x100x640 .f32) (v48 : Vec Ideal S1x300 .i32) (v26 : Vec Ideal S1x300x640 .f32) :
    payAt (F := Ideal) v2 v5 v48 v26
      = Cert.Proto.episodeK (fun s => v2 (ix2 0 s)) (fun s d => v5 (ix3 0 s d)) (fun q => v48 (ix2 0 q)) (fun q d => v26 (ix3 0 q d)) := by
  unfold payAt
  refine (pay1_apply _ _ v48).trans ?_
  unfold Cert.Proto.episodeK Cert.Proto.nllK
  refine congrArg (fun s => Ideal.div s ((300 : ℝ) : EReal)) (Finset.sum_congr rfl fun q _ => ?_)
  refine congrArg (fun s => (0 : EReal) - s) (Finset.sum_congr rfl fun c _ => ?_)
  refine congrArg (fun s => s * Cert.Proto.oh (v48 (ix2 0 q)) c) ?_
  unfold Cert.Proto.logSoftmax
  rw [pay3_apply v2 v5 v26 q c]
  simp only [pay2_apply]

end Cert.KernelIdeal.KV

end
-- ==== Proof.RefRunH.lean ====
/-
  The reference program's run, read stretch by stretch. Its @main is a straight line of 78 host operations; the line is cut
  where few values are live — after the prototypes, after the logits, after the log-probabilities, after the entries taken at
  the labels — and each stretch, run from any contents in which the values it reads are the stages named for them, leaves its
  last value at the stage named for it. Chained, the five stretches leave the result buffer at the last stage of the
  argument arrays, and every weakly fair execution of the program ends there with the arguments unchanged.
-/
import proofs.«427852_j59596966199581_3_alg».proof.Proof.Gen.ReferenceIdeal
import proofs.«427852_j59596966199581_3_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first stretch: the one-hot weights, the counts, the weighted sums, the prototypes. -/
abbrev opsA : List (HloOp τ sig (Elt F)) :=
  [ TRef.unary (TRef.of (T := ⟨S256x100, .i32⟩) main_arg2) (TRef.of (T := ⟨S256x100x1, .i32⟩) main_call0_v0) (broadcastInDim S256x100x1 ![0, 1] bcast_S256x100_S256x100x1_0_1),
    TRef.nullary (TRef.of (T := ⟨S1x1x20, .i32⟩) main_call0_v1) (iotaInDim S1x1x20 32 2),
    TRef.unary (TRef.of (T := ⟨S256x100x1, .i32⟩) main_call0_v0) (TRef.of (T := ⟨S256x100x20, .i32⟩) main_call0_v2) (broadcastInDim S256x100x20 ![0, 1, 2] bcast_S256x100x1_S256x100x20_0_1_2),
    TRef.unary (TRef.of (T := ⟨S1x1x20, .i32⟩) main_call0_v1) (TRef.of (T := ⟨S256x100x20, .i32⟩) main_call0_v3) (broadcastInDim S256x100x20 ![0, 1, 2] bcast_S1x1x20_S256x100x20_0_1_2),
    TRef.binary (TRef.of (T := ⟨S256x100x20, .i32⟩) main_call0_v2) (TRef.of (T := ⟨S256x100x20, .i32⟩) main_call0_v3) (TRef.of (T := ⟨S256x100x20, .i1⟩) main_call0_v4) (cmpi .eq),
    TRef.unary (TRef.of (T := ⟨S256x100x20, .i1⟩) main_call0_v4) (TRef.of (T := ⟨S256x100x20, .f32⟩) main_v0) (uitofp .f32),
    nullary main_cst (constant S_ .f32 0x00000000#32),
    binary main_v0 main_cst main_v1 ((fun x v => Host.reduceAdd x v reducesTo_S256x100x20_S256x20_d1 h_S_) : (⟨S256x100x20, .f32⟩ : BufTy).Contents (Elt F) → (⟨S_, .f32⟩ : BufTy).Contents (Elt F) → (⟨S256x20, .f32⟩ : BufTy).Contents (Elt F)),
    binary main_v0 main_arg0 main_v2 ((fun l r => Host.dotGeneral dot_S256x100x20_S256x100x640_S256x20x640_1_1_2_2_0_0 none l r) : (⟨S256x100x20, .f32⟩ : BufTy).Contents (Elt F) → (⟨S256x100x640, .f32⟩ : BufTy).Contents (Elt F) → (⟨S256x20x640, .f32⟩ : BufTy).Contents (Elt F)),
    unary main_v1 main_v3 (broadcastInDim S256x20x1 ![0, 1] bcast_S256x20_S256x20x1_0_1 : (⟨S256x20, .f32⟩ : BufTy).Contents (Elt F) → (⟨S256x20x1, .f32⟩ : BufTy).Contents (Elt F)),
    unary main_v3 main_v4 (broadcastInDim S256x20x640 ![0, 1, 2] bcast_S256x20x1_S256x20x640_0_1_2 : (⟨S256x20x1, .f32⟩ : BufTy).Contents (Elt F) → (⟨S256x20x640, .f32⟩ : BufTy).Contents (Elt F)),
    binary main_v2 main_v4 main_v5 (Host.divf : (⟨S256x20x640, .f32⟩ : BufTy).Contents (Elt F) → (⟨S256x20x640, .f32⟩ : BufTy).Contents (Elt F) → (⟨S256x20x640, .f32⟩ : BufTy).Contents (Elt F)) ]

/-- The second stretch: the squared norms, the cross terms, minus the squared distances. -/
abbrev opsB : List (HloOp τ sig (Elt F)) :=
  [ binary main_arg1 main_arg1 main_v6 (mulf : (⟨S256x300x640, .f32⟩ : BufTy).Contents (Elt F) → (⟨S256x300x640, .f32⟩ : BufTy).Contents (Elt F) → (⟨S256x300x640, .f32⟩ : BufTy).Contents (Elt F)),
    nullary main_cst_0 (constant S_ .f32 0x00000000#32),
    binary main_v6 main_cst_0 main_v7 ((fun x v => Host.reduceAdd x v reducesTo_S256x300x640_S256x300_d2 h_S_) : (⟨S256x300x640, .f32⟩ : BufTy).Contents (Elt F) → (⟨S_, .f32⟩ : BufTy).Contents (Elt F) → (⟨S256x300, .f32⟩ : BufTy).Contents (Elt F)),
    binary main_v5 main_v5 main_v8 (mulf : (⟨S256x20x640, .f32⟩ : BufTy).Contents (Elt F) → (⟨S256x20x640, .f32⟩ : BufTy).Contents (Elt F) → (⟨S256x20x640, .f32⟩ : BufTy).Contents (Elt F)),
    nullary main_cst_1 (constant S_ .f32 0x00000000#32),
    binary main_v8 main_cst_1 main_v9 ((fun x v => Host.reduceAdd x v reducesTo_S256x20x640_S256x20_d2 h_S_) : (⟨S256x20x640, .f32⟩ : BufTy).Contents (Elt F) → (⟨S_, .f32⟩ : BufTy).Contents (Elt F) → (⟨S256x20, .f32⟩ : BufTy).Contents (Elt F)),
    binary main_arg1 main_v5 main_v10 ((fun l r => Host.dotGeneral dot_S256x300x640_S256x20x640_S256x300x20_2_2_1_1_0_0 none l r) : (⟨S256x300x640, .f32⟩ : BufTy).Contents (Elt F) → (⟨S256x20x640, .f32⟩ : BufTy).Contents (Elt F) → (⟨S256x300x20, .f32⟩ : BufTy).Contents (Elt F)),
    unary main_v7 main_v11 (broadcastInDim S256x300x1 ![0, 1] bcast_S256x300_S256x300x1_0_1 : (⟨S256x300, .f32⟩ : BufTy).Contents (Elt F) → (⟨S256x300x1, .f32⟩ : BufTy).Contents (Elt F)),
    unary main_v9 main_v12 (broadcastInDim S256x1x20 ![0, 2] bcast_S256x20_S256x1x20_0_2 : (⟨S256x20, .f32⟩ : BufTy).Contents (Elt F) → (⟨S256x1x20, .f32⟩ : BufTy).Contents (Elt F)),
    unary main_v11 main_v13 (broadcastInDim S256x300x20 ![0, 1, 2] bcast_S256x300x1_S256x300x20_0_1_2 : (⟨S256x300x1, .f32⟩ : BufTy).Contents (Elt F) → (⟨S256x300x20, .f32⟩ : BufTy).Contents (Elt F)),
    unary main_v12 main_v14 (broadcastInDim S256x300x20 ![0, 1, 2] bcast_S256x1x20_S256x300x20_0_1_2 : (⟨S256x1x20, .f32⟩ : BufTy).Contents (Elt F) → (⟨S256x300x20, .f32⟩ : BufTy).Contents (Elt F)),
    binary main_v13 main_v14 main_v15 (addf : (⟨S256x300x20, .f32⟩ : BufTy).Contents (Elt F) → (⟨S256x300x20, .f32⟩ : BufTy).Contents (Elt F) → (⟨S256x300x20, .f32⟩ : BufTy).Contents (Elt F)),
    nullary main_cst_2 (constant S_ .f32 0x40000000#32),
    unary main_cst_2 main_v16 (broadcastInDim S256x300x20 ![] bcast_S_S256x300x20 : (⟨S_, .f32⟩ : BufTy).Contents (Elt F) → (⟨S256x300x20, .f32⟩ : BufTy).Contents (Elt F)),
    binary main_v16 main_v10 main_v17 (mulf : (⟨S256x300x20, .f32⟩ : BufTy).Contents (Elt F) → (⟨S256x300x20, .f32⟩ : BufTy).Contents (Elt F) → (⟨S256x300x20, .f32⟩ : BufTy).Contents (Elt F)),
    binary main_v15 main_v17 main_v18 (subf : (⟨S256x300x20, .f32⟩ : BufTy).Contents (Elt F) → (⟨S256x300x20, .f32⟩ : BufTy).Contents (Elt F) → (⟨S256x300x20, .f32⟩ : BufTy).Contents (Elt F)),
    unary main_v18 main_v19 (Host.negf : (⟨S256x300x20, .f32⟩ : BufTy).Contents (Elt F) → (⟨S256x300x20, .f32⟩ : BufTy).Contents (Elt F)) ]

/-- The third stretch: the log-softmax over the classes. -/
abbrev opsC : List (HloOp τ sig (Elt F)) :=
  [ TRef.nullary (TRef.of (T := ⟨S_, .f32⟩) main_call1_cst) (constant S_ .f32 0xFF800000#32),
    TRef.binary (TRef.of (T := ⟨S256x300x20, .f32⟩) main_v19) (TRef.of (T := ⟨S_, .f32⟩) main_call1_cst) (TRef.of (T := ⟨S256x300, .f32⟩) main_call1_v0) (fun x v => Host.reduce FloatOps.maximumf x v reducesTo_S256x300x20_S256x300_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S256x300, .f32⟩) main_call1_v1) (broadcastInDim S256x300 ![] bcast_S_S256x300),
    TRef.binary (TRef.of (T := ⟨S256x300, .f32⟩) main_call1_v1) (TRef.of (T := ⟨S256x300, .f32⟩) main_call1_v0) (TRef.of (T := ⟨S256x300, .f32⟩) main_call1_v2) maximumf,
    TRef.unary (TRef.of (T := ⟨S256x300, .f32⟩) main_call1_v2) (TRef.of (T := ⟨S256x300x1, .f32⟩) main_call1_v3) (broadcastInDim S256x300x1 ![0, 1] bcast_S256x300_S256x300x1_0_1),
    TRef.unary (TRef.of (T := ⟨S256x300x1, .f32⟩) main_call1_v3) (TRef.of (T := ⟨S256x300x20, .f32⟩) main_call1_v4) (broadcastInDim S256x300x20 ![0, 1, 2] bcast_S256x300x1_S256x300x20_0_1_2),
    TRef.binary (TRef.of (T := ⟨S256x300x20, .f32⟩) main_v19) (TRef.of (T := ⟨S256x300x20, .f32⟩) main_call1_v4) (TRef.of (T := ⟨S256x300x20, .f32⟩) main_call1_v5) subf,
    TRef.unary (TRef.of (T := ⟨S256x300x20, .f32⟩) main_call1_v5) (TRef.of (T := ⟨S256x300x20, .f32⟩) main_call1_v6) Host.exp,
    TRef.nullary (TRef.of (T := ⟨S_, .f32⟩) main_call1_cst_1) (constant S_ .f32 0x00000000#32),
    TRef.binary (TRef.of (T := ⟨S256x300x20, .f32⟩) main_call1_v6) (TRef.of (T := ⟨S_, .f32⟩) main_call1_cst_1) (TRef.of (T := ⟨S256x300, .f32⟩) main_call1_v7) (fun x v => Host.reduceAdd x v reducesTo_S256x300x20_S256x300_d2 h_S_),
    TRef.unary (TRef.of (T := ⟨S256x300, .f32⟩) main_call1_v7) (TRef.of (T := ⟨S256x300x1, .f32⟩) main_call1_v8) (broadcastInDim S256x300x1 ![0, 1] bcast_S256x300_S256x300x1_0_1),
    TRef.unary (TRef.of (T := ⟨S256x300x1, .f32⟩) main_call1_v8) (TRef.of (T := ⟨S256x300x1, .f32⟩) main_call1_v9) Host.log,
    TRef.unary (TRef.of (T := ⟨S256x300x1, .f32⟩) main_call1_v9) (TRef.of (T := ⟨S256x300x20, .f32⟩) main_call1_v10) (broadcastInDim S256x300x20 ![0, 1, 2] bcast_S256x300x1_S256x300x20_0_1_2),
    TRef.binary (TRef.of (T := ⟨S256x300x20, .f32⟩) main_call1_v5) (TRef.of (T := ⟨S256x300x20, .f32⟩) main_call1_v10) (TRef.of (T := ⟨S256x300x20, .f32⟩) main_v20) subf ]

/-- The fourth stretch: the entry at each query's label. -/
abbrev opsD : List (HloOp τ sig (Elt F)) :=
  [ unary main_arg3 main_v21 (broadcastInDim S256x300x1 ![0, 1] bcast_S256x300_S256x300x1_0_1 : (⟨S256x300, .i32⟩ : BufTy).Contents (Elt F) → (⟨S256x300x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S256x300x1, .i32⟩) main_call2_v0) (broadcastInDim S256x300x1 ![] bcast_S_S256x300x1),
    TRef.binary (TRef.of (T := ⟨S256x300x1, .i32⟩) main_v21) (TRef.of (T := ⟨S256x300x1, .i32⟩) main_call2_v0) (TRef.of (T := ⟨S256x300x1, .i1⟩) main_call2_v1) (cmpi .slt),
    TRef.nullary (TRef.of (T := ⟨S_, .i32⟩) main_call2_c_0) (constantI S_ 32 20#32),
    TRef.unary (TRef.of (T := ⟨S_, .i32⟩) main_call2_c_0) (TRef.of (T := ⟨S256x300x1, .i32⟩) main_call2_v2) (broadcastInDim S256x300x1 ![] bcast_S_S256x300x1),
    TRef.binary (TRef.of (T := ⟨S256x300x1, .i32⟩) main_v21) (TRef.of (T := ⟨S256x300x1, .i32⟩) main_call2_v2) (TRef.of (T := ⟨S256x300x1, .i32⟩) main_call2_v3) addi,
    TRef.ternary (TRef.of (T := ⟨S256x300x1, .i1⟩) main_call2_v1) (TRef.of (T := ⟨S256x300x1, .i32⟩) main_call2_v3) (TRef.of (T := ⟨S256x300x1, .i32⟩) main_v21) (TRef.of (T := ⟨S256x300x1, .i32⟩) main_call2_v4) select,
    TRef.reshape (TRef.of (T := ⟨S256x300x1, .i32⟩) main_call2_v4) (TRef.of (T := ⟨S256x300x1x1, .i32⟩) main_call2_v5) rfl shapeCasts_S256x300x1_S256x300x1x1,
    TRef.nullary (TRef.of (T := ⟨S1, .i32⟩) main_call2_c_1) (constantI S1 32 19#32),
    TRef.nullary (TRef.of (T := ⟨S_, .i32⟩) main_call2_c_2) (constantI S_ 32 0#32),
    TRef.unary (TRef.of (T := ⟨S_, .i32⟩) main_call2_c_2) (TRef.of (T := ⟨S256x300x1x1, .i32⟩) main_call2_v6) (broadcastInDim S256x300x1x1 ![] bcast_S_S256x300x1x1),
    TRef.binary (TRef.of (T := ⟨S256x300x1x1, .i32⟩) main_call2_v5) (TRef.of (T := ⟨S256x300x1x1, .i32⟩) main_call2_v6) (TRef.of (T := ⟨S256x300x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S256x300x1x1, .i32⟩) main_call2_v9) (broadcastInDim S256x300x1x1 ![0, 1, 2, 3] bcast_S1x1x1x1_S256x300x1x1_0_1_2_3),
    TRef.binary (TRef.of (T := ⟨S256x300x1x1, .i32⟩) main_call2_v5) (TRef.of (T := ⟨S256x300x1x1, .i32⟩) main_call2_v9) (TRef.of (T := ⟨S256x300x1x1, .i1⟩) main_call2_v10) (cmpi .sle),
    TRef.binary (TRef.of (T := ⟨S256x300x1x1, .i1⟩) main_call2_v7) (TRef.of (T := ⟨S256x300x1x1, .i1⟩) main_call2_v10) (TRef.of (T := ⟨S256x300x1x1, .i1⟩) main_call2_v11) andi,
    TRef.nullary (TRef.of (T := ⟨S_, .i1⟩) main_call2_c_3) (constantI S_ 1 1#1),
    TRef.binary (TRef.of (T := ⟨S256x300x1x1, .i1⟩) main_call2_v11) (TRef.of (T := ⟨S_, .i1⟩) main_call2_c_3) (TRef.of (T := ⟨S256x300x1, .i1⟩) main_call2_v12) (fun x v => Host.reduce IntOp.andi x v reducesTo_S256x300x1x1_S256x300x1_d3 h_S_),
    TRef.binary (TRef.of (T := ⟨S256x300x20, .f32⟩) main_v20) (TRef.of (T := ⟨S256x300x1x1, .i32⟩) main_call2_v5) (TRef.of (T := ⟨S256x300x1, .f32⟩) main_call2_v13) (fun x i => Host.gather gather_S256x300x20_S256x300x1x1_S256x300x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S256x300x1, .f32⟩) main_call2_v14) (broadcastInDim S256x300x1 ![] bcast_S_S256x300x1),
    TRef.ternary (TRef.of (T := ⟨S256x300x1, .i1⟩) main_call2_v12) (TRef.of (T := ⟨S256x300x1, .f32⟩) main_call2_v13) (TRef.of (T := ⟨S256x300x1, .f32⟩) main_call2_v14) (TRef.of (T := ⟨S256x300x1, .f32⟩) main_v22) select ]

/-- The fifth stretch: the two means. -/
abbrev opsE : List (HloOp τ sig (Elt F)) :=
  [ reshape main_v22 main_v23 rfl shapeCasts_S256x300x1_S256x300,
    unary main_v23 main_v24 (Host.negf : (⟨S256x300, .f32⟩ : BufTy).Contents (Elt F) → (⟨S256x300, .f32⟩ : BufTy).Contents (Elt F)),
    nullary main_cst_3 (constant S_ .f32 0x00000000#32),
    binary main_v24 main_cst_3 main_v25 ((fun x v => Host.reduceAdd x v reducesTo_S256x300_S256_d1 h_S_) : (⟨S256x300, .f32⟩ : BufTy).Contents (Elt F) → (⟨S_, .f32⟩ : BufTy).Contents (Elt F) → (⟨S256, .f32⟩ : BufTy).Contents (Elt F)),
    nullary main_cst_4 (constant S_ .f32 0x43960000#32),
    unary main_cst_4 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    nullary main_cst_5 (constant S_ .f32 0x00000000#32),
    binary main_v27 main_cst_5 main_v28 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_6 (constant S_ .f32 0x43800000#32),
    binary main_v28 main_cst_6 main_v29 (Host.divf : (⟨S_, .f32⟩ : BufTy).Contents (Elt F) → (⟨S_, .f32⟩ : BufTy).Contents (Elt F) → (⟨S_, .f32⟩ : BufTy).Contents (Elt F)) ]

/-- @main's 78 operations, in order. -/
abbrev ops : List (HloOp τ sig (Elt F)) := opsA ++ (opsB ++ (opsC ++ (opsD ++ opsE)))

/-- Contents written through a typed reference and read back through it are the contents. -/
theorem ofBuf_toBuf {T : BufTy} (x : TRef sig T) (v : T.Contents (Elt F)) : x.ofBuf (x.toBuf v) = v := by
  obtain ⟨r, h, h1, h2⟩ := x
  subst h
  rfl

set_option maxRecDepth 65536 in
/-- At a literal buffer the transport of contents along the buffer's type is the identity: minus the squared distances, read. -/
theorem ofBuf_v19 (v : (⟨S256x300x20, .f32⟩ : BufTy).Contents (Elt F)) :
    (TRef.of (sig := sig) (T := ⟨S256x300x20, .f32⟩) main_v19).ofBuf v = v := rfl
set_option maxRecDepth 65536 in
/-- The same at the log-probabilities' buffer, written. -/
theorem toBuf_v20 (v : (⟨S256x300x20, .f32⟩ : BufTy).Contents (Elt F)) :
    (TRef.of (sig := sig) (T := ⟨S256x300x20, .f32⟩) main_v20).toBuf v = v := rfl
set_option maxRecDepth 65536 in
/-- The same at the log-probabilities' buffer, read. -/
theorem ofBuf_v20 (v : (⟨S256x300x20, .f32⟩ : BufTy).Contents (Elt F)) :
    (TRef.of (sig := sig) (T := ⟨S256x300x20, .f32⟩) main_v20).ofBuf v = v := rfl
set_option maxRecDepth 65536 in
/-- The same at the labels' column, read. -/
theorem ofBuf_v21 (v : (⟨S256x300x1, .i32⟩ : BufTy).Contents (Elt F)) :
    (TRef.of (sig := sig) (T := ⟨S256x300x1, .i32⟩) main_v21).ofBuf v = v := rfl
set_option maxRecDepth 65536 in
/-- The same at the buffer of the entries taken at the labels, written. -/
theorem toBuf_v22 (v : (⟨S256x300x1, .f32⟩ : BufTy).Contents (Elt F)) :
    (TRef.of (sig := sig) (T := ⟨S256x300x1, .f32⟩) main_v22).toBuf v = v := rfl

/-- The prototypes after the first stretch. -/
theorem stretchA (W : Valuation τ sig (Elt F)) :
    after (opsA (F := F)) W (Proc.devRef .tc main_v5)
      = val_main_v5 (F := F) (W (Proc.devRef .tc main_arg0)) (W (Proc.devRef .tc main_arg2)) := by
  after_results_simp
  simp only [TRef.ofBuf, TRef.toBuf, cast_eq]
  unfold val_main_v5 val_main_v4 val_main_v3 val_main_v2 val_main_v1 val_main_cst val_main_v0 val_main_call0_v4 val_main_call0_v3 val_main_call0_v2 val_main_call0_v1 val_main_call0_v0
  rfl

/-- The first stretch writes no argument. -/
theorem keepA (W : Valuation τ sig (Elt F)) :
    after (opsA (F := F)) W (Proc.devRef .tc main_arg0) = W (Proc.devRef .tc main_arg0)
    ∧ after (opsA (F := F)) W (Proc.devRef .tc main_arg1) = W (Proc.devRef .tc main_arg1)
    ∧ after (opsA (F := F)) W (Proc.devRef .tc main_arg2) = W (Proc.devRef .tc main_arg2)
    ∧ after (opsA (F := F)) W (Proc.devRef .tc main_arg3) = W (Proc.devRef .tc main_arg3) := by
  refine ⟨?_, ?_, ?_, ?_⟩ <;> after_results_simp

/-- Minus the squared distances after the second stretch, from the prototypes. -/
theorem stretchB (W : Valuation τ sig (Elt F)) (x0 : (⟨S256x100x640, .f32⟩ : BufTy).Contents (Elt F)) (x2 : (⟨S256x100, .i32⟩ : BufTy).Contents (Elt F))
    (h5 : W (Proc.devRef .tc main_v5) = val_main_v5 (F := F) x0 x2) :
    after (opsB (F := F)) W (Proc.devRef .tc main_v19)
      = val_main_v19 (F := F) x0 (W (Proc.devRef .tc main_arg1)) x2 := by
  after_results_simp
  rw [h5]
  unfold val_main_v19 val_main_v18 val_main_v17 val_main_v16 val_main_cst_2 val_main_v15 val_main_v14 val_main_v13 val_main_v12 val_main_v11 val_main_v10 val_main_v9 val_main_cst_1 val_main_v8 val_main_v7 val_main_cst_0 val_main_v6
  rfl

/-- The second stretch writes no argument. -/
theorem keepB (W : Valuation τ sig (Elt F)) :
    after (opsB (F := F)) W (Proc.devRef .tc main_arg0) = W (Proc.devRef .tc main_arg0)
    ∧ after (opsB (F := F)) W (Proc.devRef .tc main_arg1) = W (Proc.devRef .tc main_arg1)
    ∧ after (opsB (F := F)) W (Proc.devRef .tc main_arg2) = W (Proc.devRef .tc main_arg2)
    ∧ after (opsB (F := F)) W (Proc.devRef .tc main_arg3) = W (Proc.devRef .tc main_arg3) := by
  refine ⟨?_, ?_, ?_, ?_⟩ <;> after_results_simp

/-- The log-probabilities after the third stretch, from minus the squared distances. -/
theorem stretchC (W : Valuation τ sig (Elt F)) (x0 : (⟨S256x100x640, .f32⟩ : BufTy).Contents (Elt F)) (x1 : (⟨S256x300x640, .f32⟩ : BufTy).Contents (Elt F))
    (x2 : (⟨S256x100, .i32⟩ : BufTy).Contents (Elt F))
    (h19 : W (Proc.devRef .tc main_v19) = val_main_v19 (F := F) x0 x1 x2) :
    after (opsC (F := F)) W (Proc.devRef .tc main_v20) = val_main_v20 (F := F) x0 x1 x2 := by
  after_results_simp
  simp only [ofBuf_toBuf]
  rw [h19]
  simp only [ofBuf_v19, toBuf_v20]
  unfold val_main_v20 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst
  rfl

/-- The third stretch writes no argument. -/
theorem keepC (W : Valuation τ sig (Elt F)) :
    after (opsC (F := F)) W (Proc.devRef .tc main_arg0) = W (Proc.devRef .tc main_arg0)
    ∧ after (opsC (F := F)) W (Proc.devRef .tc main_arg1) = W (Proc.devRef .tc main_arg1)
    ∧ after (opsC (F := F)) W (Proc.devRef .tc main_arg2) = W (Proc.devRef .tc main_arg2)
    ∧ after (opsC (F := F)) W (Proc.devRef .tc main_arg3) = W (Proc.devRef .tc main_arg3) := by
  refine ⟨?_, ?_, ?_, ?_⟩ <;> after_results_simp

/-- The entries at the labels after the fourth stretch, from the log-probabilities. -/
theorem stretchD (W : Valuation τ sig (Elt F)) (x0 : (⟨S256x100x640, .f32⟩ : BufTy).Contents (Elt F)) (x1 : (⟨S256x300x640, .f32⟩ : BufTy).Contents (Elt F))
    (x2 : (⟨S256x100, .i32⟩ : BufTy).Contents (Elt F))
    (h20 : W (Proc.devRef .tc main_v20) = val_main_v20 (F := F) x0 x1 x2) :
    after (opsD (F := F)) W (Proc.devRef .tc main_v22)
      = val_main_v22 (F := F) x0 x1 x2 (W (Proc.devRef .tc main_arg3)) := by
  after_results_simp
  simp only [ofBuf_toBuf]
  rw [h20]
  simp only [ofBuf_v20, ofBuf_v21, toBuf_v22]
  unfold val_main_v22 val_main_call2_v14 val_main_call2_cst val_main_call2_v13 val_main_call2_v12 val_main_call2_c_3 val_main_call2_v11 val_main_call2_v10 val_main_call2_v9 val_main_call2_v8 val_main_call2_v7 val_main_call2_v6 val_main_call2_c_2 val_main_call2_c_1 val_main_call2_v5 val_main_call2_v4 val_main_call2_v3 val_main_call2_v2 val_main_call2_c_0 val_main_call2_v1 val_main_call2_v0 val_main_call2_c val_main_v21
  rfl

/-- The fourth stretch writes no argument. -/
theorem keepD (W : Valuation τ sig (Elt F)) :
    after (opsD (F := F)) W (Proc.devRef .tc main_arg0) = W (Proc.devRef .tc main_arg0)
    ∧ after (opsD (F := F)) W (Proc.devRef .tc main_arg1) = W (Proc.devRef .tc main_arg1)
    ∧ after (opsD (F := F)) W (Proc.devRef .tc main_arg2) = W (Proc.devRef .tc main_arg2)
    ∧ after (opsD (F := F)) W (Proc.devRef .tc main_arg3) = W (Proc.devRef .tc main_arg3) := by
  refine ⟨?_, ?_, ?_, ?_⟩ <;> after_results_simp

/-- The result after the fifth stretch, from the entries at the labels. -/
theorem stretchE (W : Valuation τ sig (Elt F)) (x0 : (⟨S256x100x640, .f32⟩ : BufTy).Contents (Elt F)) (x1 : (⟨S256x300x640, .f32⟩ : BufTy).Contents (Elt F))
    (x2 : (⟨S256x100, .i32⟩ : BufTy).Contents (Elt F)) (x3 : (⟨S256x300, .i32⟩ : BufTy).Contents (Elt F))
    (h22 : W (Proc.devRef .tc main_v22) = val_main_v22 (F := F) x0 x1 x2 x3) :
    after (opsE (F := F)) W (Proc.devRef .tc main_v29) = val_main_v29 (F := F) x0 x1 x2 x3 := by
  after_results_simp
  rw [h22]
  unfold val_main_v29 val_main_cst_6 val_main_v28 val_main_cst_5 val_main_v27 val_main_v26 val_main_cst_4 val_main_v25 val_main_cst_3 val_main_v24 val_main_v23
  rfl

/-- The fifth stretch writes no argument. -/
theorem keepE (W : Valuation τ sig (Elt F)) :
    after (opsE (F := F)) W (Proc.devRef .tc main_arg0) = W (Proc.devRef .tc main_arg0)
    ∧ after (opsE (F := F)) W (Proc.devRef .tc main_arg1) = W (Proc.devRef .tc main_arg1)
    ∧ after (opsE (F := F)) W (Proc.devRef .tc main_arg2) = W (Proc.devRef .tc main_arg2)
    ∧ after (opsE (F := F)) W (Proc.devRef .tc main_arg3) = W (Proc.devRef .tc main_arg3) := by
  refine ⟨?_, ?_, ?_, ?_⟩ <;> after_results_simp

/-- The whole line: the result buffer ends at the last stage of the argument arrays, and the arguments as they were. -/
theorem after_ops (V : Valuation τ sig (Elt F)) :
    after (ops (F := F)) V (Proc.devRef .tc main_v29)
        = val_main_v29 (F := F) (V (Proc.devRef .tc main_arg0)) (V (Proc.devRef .tc main_arg1)) (V (Proc.devRef .tc main_arg2)) (V (Proc.devRef .tc main_arg3))
    ∧ after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3) := by
  obtain ⟨a0, a1, a2, a3⟩ := keepA V
  obtain ⟨b0, b1, b2, b3⟩ := keepB (after opsA V)
  obtain ⟨c0, c1, c2, c3⟩ := keepC (after opsB (after opsA V))
  obtain ⟨d0, d1, d2, d3⟩ := keepD (after opsC (after opsB (after opsA V)))
  obtain ⟨e0, e1, e2, e3⟩ := keepE (after opsD (after opsC (after opsB (after opsA V))))
  have h5 := stretchA V
  have h19 := stretchB (after opsA V) _ _ h5
  rw [a1] at h19
  have h20 := stretchC (after opsB (after opsA V)) _ _ _ h19
  have h22 := stretchD (after opsC (after opsB (after opsA V))) _ _ _ h20
  rw [c3, b3, a3] at h22
  have h29 := stretchE (after opsD (after opsC (after opsB (after opsA V)))) _ _ _ _ h22
  simp only [ops, StableHlo.after_append]
  exact ⟨h29, e0.trans (d0.trans (c0.trans (b0.trans a0))), e1.trans (d1.trans (c1.trans (b1.trans a1))),
    e2.trans (d2.trans (c2.trans (b2.trans a2))), e3.trans (d3.trans (c3.trans (b3.trans a3)))⟩

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., binary_bufs_sub .., unary_bufs_sub .., unary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., unary_bufs_sub .., binary_bufs_sub .., nullary_bufs_sub .., binary_bufs_sub .., nullary_bufs_sub .., binary_bufs_sub ..⟩

/-- On every device, from any memory with zero counters: every weakly fair execution of the reference's @main terminates
    with the result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = val_main_v29 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v29).trans (after_ops (launchContents m c)).1,
       (h c main_arg0).trans (after_ops (launchContents m c)).2.1,
       (h c main_arg1).trans (after_ops (launchContents m c)).2.2.1,
       (h c main_arg2).trans (after_ops (launchContents m c)).2.2.2.1,
       (h c main_arg3).trans (after_ops (launchContents m c)).2.2.2.2⟩)
    (run_seq scopedRefs_eq scopedSems_eq defs main (fun _ => ops) main_eq (fun _ => ops_sub) m ρ)

end Cert.ReferenceIdeal.RunH

end
-- ==== Proof.RLogits.lean ====
/-
  The reference's logits read at an index: entry (b, q, c) of minus the squared distances is the reference's logit of query
  `q` at class `c` of episode `b`.

  The stages follow the reference's own intermediates: the one-hot weights of the support labels, the class counts, the
  one-hot weighted sums of the support vectors, the prototypes (sum over count), the squared norms of the queries and of the
  prototypes, the inner products of queries and prototypes, and last minus ((‖q‖² + ‖p_c‖²) − 2 q·p_c).
-/
import proofs.«427852_j59596966199581_3_alg».proof.Proof.RefRead
import proofs.«427852_j59596966199581_3_alg».proof.Proof.Spec
import proofs.«427852_j59596966199581_3_alg».proof.Proof.Consts
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx

/-- The unsigned value of a one-bit comparison of two words, as an extended real, is the one-hot weight: 1 when the words are
    equal, else 0. -/
theorem uitofp_cmpi_eq (t : BitVec 32) (c : Fin 20) :
    FloatOps.uitofp (F := Ideal) .f32 (IntOp.cmpi .eq t (BitVec.ofNat 32 c.val)) = Cert.Proto.oh t c := by
  unfold Cert.Proto.oh
  by_cases h : t = BitVec.ofNat 32 c.val
  · rw [if_pos h, StableHlo.Predicate.cmpi_eq_iff.mpr h]
    show ((((1#1 : BitVec 1).toNat : ℝ)) : EReal) = 1
    simp
  · rw [if_neg h, eq_zero_of_ne_one (mt StableHlo.Predicate.cmpi_eq_iff.mp h)]
    show ((((0#1 : BitVec 1).toNat : ℝ)) : EReal) = 0
    simp

/-- The one-hot array at (b, s, c): the weight of support label (b, s) at class `c`. -/
theorem onehot_apply (x2 : (⟨S256x100, .i32⟩ : BufTy).Contents (Elt Ideal)) (b : Fin 256) (s : Fin 100) (c : Fin 20) :
    val_main_v0 (F := Ideal) x2 (ix3 b s c) = Cert.Proto.oh (x2 (ix2 b s)) c := by
  have e0 : idx_main_call0_v0 (idx_main_call0_v2 (ix3 b s c)) = ix2 b s :=
    funext fun a => Fin.ext (by match a with | ⟨0, _⟩ => rfl | ⟨1, _⟩ => rfl)
  rw [val_main_v0_apply, val_main_call0_v4_apply, val_main_call0_v2_apply, val_main_call0_v0_apply,
    val_main_call0_v3_apply, val_main_call0_v1_apply, e0]
  exact uitofp_cmpi_eq (x2 (ix2 b s)) c

/-- The counts at (b, c): how many support labels of episode `b` name class `c`. -/
theorem counts_apply (x2 : (⟨S256x100, .i32⟩ : BufTy).Contents (Elt Ideal)) (b : Fin 256) (c : Fin 20) :
    val_main_v1 (F := Ideal) x2 (ix2 b c) = Cert.Proto.cnt (fun s => x2 (ix2 b s)) c := by
  rw [val_main_v1_apply, val_main_cst_apply, Ideal.ofBits_def, Cert.Proto.Consts.ofBits_zero, zero_add]
  unfold Cert.Proto.cnt
  refine Finset.sum_congr rfl fun k _ => ?_
  have e : idx_main_v1 (ix2 b c) k = ix3 b k c :=
    funext fun a => Fin.ext (by match a with | ⟨0, _⟩ => rfl | ⟨1, _⟩ => rfl | ⟨2, _⟩ => rfl)
  rw [e, onehot_apply]

/-- The first contraction at (b, c, d): the one-hot weighted sum of the support vectors' coordinate `d`. -/
theorem sums_apply (x0 : (⟨S256x100x640, .f32⟩ : BufTy).Contents (Elt Ideal)) (x2 : (⟨S256x100, .i32⟩ : BufTy).Contents (Elt Ideal))
    (b : Fin 256) (c : Fin 20) (d : Fin 640) :
    val_main_v2 (F := Ideal) x0 x2 (ix3 b c d)
      = Cert.Proto.psum (fun s => x2 (ix2 b s)) (fun s d => x0 (ix3 b s d)) c d := by
  rw [val_main_v2_apply]
  unfold Cert.Proto.psum
  refine Finset.sum_congr rfl fun k _ => ?_
  have el : lidx_main_v2 (ix3 b c d) k = ix3 b k c :=
    funext fun a => Fin.ext (by match a with | ⟨0, _⟩ => rfl | ⟨1, _⟩ => rfl | ⟨2, _⟩ => rfl)
  have er : ridx_main_v2 (ix3 b c d) k = ix3 b k d :=
    funext fun a => Fin.ext (by match a with | ⟨0, _⟩ => rfl | ⟨1, _⟩ => rfl | ⟨2, _⟩ => rfl)
  rw [el, er, onehot_apply]

/-- The prototypes at (b, c, d): the weighted sum over the count. -/
theorem protos_apply (x0 : (⟨S256x100x640, .f32⟩ : BufTy).Contents (Elt Ideal)) (x2 : (⟨S256x100, .i32⟩ : BufTy).Contents (Elt Ideal))
    (b : Fin 256) (c : Fin 20) (d : Fin 640) :
    val_main_v5 (F := Ideal) x0 x2 (ix3 b c d)
      = Cert.Proto.protoR (fun s => x2 (ix2 b s)) (fun s d => x0 (ix3 b s d)) c d := by
  have e : idx_main_v3 (idx_main_v4 (ix3 b c d)) = ix2 b c :=
    funext fun a => Fin.ext (by match a with | ⟨0, _⟩ => rfl | ⟨1, _⟩ => rfl)
  rw [val_main_v5_apply, val_main_v4_apply, val_main_v3_apply, e, sums_apply, counts_apply, Ideal.hostDivf_def]
  rfl

/-- The queries' squared norms at (b, q). -/
theorem qnorms_apply (x1 : (⟨S256x300x640, .f32⟩ : BufTy).Contents (Elt Ideal)) (b : Fin 256) (q : Fin 300) :
    val_main_v7 (F := Ideal) x1 (ix2 b q) = Cert.Proto.qsq (fun q d => x1 (ix3 b q d)) q := by
  rw [val_main_v7_apply, val_main_cst_0_apply, Ideal.ofBits_def, Cert.Proto.Consts.ofBits_zero, zero_add]
  unfold Cert.Proto.qsq
  refine Finset.sum_congr rfl fun k _ => ?_
  have e : idx_main_v7 (ix2 b q) k = ix3 b q k :=
    funext fun a => Fin.ext (by match a with | ⟨0, _⟩ => rfl | ⟨1, _⟩ => rfl | ⟨2, _⟩ => rfl)
  rw [e, val_main_v6_apply, Ideal.mulf_def]

/-- The prototypes' squared norms at (b, c). -/
theorem pnorms_apply (x0 : (⟨S256x100x640, .f32⟩ : BufTy).Contents (Elt Ideal)) (x2 : (⟨S256x100, .i32⟩ : BufTy).Contents (Elt Ideal))
    (b : Fin 256) (c : Fin 20) :
    val_main_v9 (F := Ideal) x0 x2 (ix2 b c)
      = Cert.Proto.psq (Cert.Proto.protoR (fun s => x2 (ix2 b s)) (fun s d => x0 (ix3 b s d))) c := by
  rw [val_main_v9_apply, val_main_cst_1_apply, Ideal.ofBits_def, Cert.Proto.Consts.ofBits_zero, zero_add]
  unfold Cert.Proto.psq
  refine Finset.sum_congr rfl fun k _ => ?_
  have e : idx_main_v9 (ix2 b c) k = ix3 b c k :=
    funext fun a => Fin.ext (by match a with | ⟨0, _⟩ => rfl | ⟨1, _⟩ => rfl | ⟨2, _⟩ => rfl)
  rw [e, val_main_v8_apply, protos_apply, Ideal.mulf_def]

/-- The second contraction at (b, q, c): the inner product of query `q` with the prototype of class `c`. -/
theorem cross_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) (c : Fin 20) :
    val_main_v10 (F := Ideal) x0 x1 x2 (ix3 b q c)
      = Cert.Proto.cross (fun q d => x1 (ix3 b q d))
          (Cert.Proto.protoR (fun s => x2 (ix2 b s)) (fun s d => x0 (ix3 b s d))) q c := by
  rw [val_main_v10_apply]
  unfold Cert.Proto.cross
  refine Finset.sum_congr rfl fun k _ => ?_
  have el : lidx_main_v10 (ix3 b q c) k = ix3 b q k :=
    funext fun a => Fin.ext (by match a with | ⟨0, _⟩ => rfl | ⟨1, _⟩ => rfl | ⟨2, _⟩ => rfl)
  have er : ridx_main_v10 (ix3 b q c) k = ix3 b c k :=
    funext fun a => Fin.ext (by match a with | ⟨0, _⟩ => rfl | ⟨1, _⟩ => rfl | ⟨2, _⟩ => rfl)
  rw [el, er, protos_apply]

/-- The logits at (b, q, c). -/
theorem logits_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) (c : Fin 20) :
    val_main_v19 (F := Ideal) x0 x1 x2 (ix3 b q c)
      = Cert.Proto.logitR (Cert.Proto.protoR (fun s => x2 (ix2 b s)) (fun s d => x0 (ix3 b s d))) (fun q d => x1 (ix3 b q d)) q c := by
  have eq : idx_main_v11 (idx_main_v13 (ix3 b q c)) = ix2 b q :=
    funext fun a => Fin.ext (by match a with | ⟨0, _⟩ => rfl | ⟨1, _⟩ => rfl)
  have ep : idx_main_v12 (idx_main_v14 (ix3 b q c)) = ix2 b c :=
    funext fun a => Fin.ext (by match a with | ⟨0, _⟩ => rfl | ⟨1, _⟩ => rfl)
  rw [val_main_v19_apply, val_main_v18_apply, val_main_v15_apply, val_main_v17_apply, val_main_v13_apply, val_main_v11_apply,
    val_main_v14_apply, val_main_v12_apply, val_main_v16_apply, val_main_cst_2_apply, eq, ep, qnorms_apply, pnorms_apply,
    cross_apply, Ideal.hostNegf_def, Ideal.negf_def, Ideal.subf_def, Ideal.addf_def, Ideal.mulf_def, Ideal.ofBits_def,
    Cert.Proto.Consts.ofBits_two]
  rfl

end Cert.ReferenceIdeal.RefValue

end
-- ==== Proof.RLogp.lean ====
/-
  The reference's log-probabilities read at an index: entry (b, q, c) is the log-softmax, over the classes, of the row
  (b, q) of the logits.
-/
import proofs.«427852_j59596966199581_3_alg».proof.Proof.RefRead
import proofs.«427852_j59596966199581_3_alg».proof.Proof.Spec
import proofs.«427852_j59596966199581_3_alg».proof.Proof.Consts
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

namespace Logp

/-! ## The row maximum -/

/-- The reduced index (b, q) with class `k` put back is (b, q, k). -/
theorem lift_ix3 (h : S256x300x20.Reduces [2] S256x300) (b : Fin 256) (q : Fin 300) (k : Fin (S256x300x20.size 2)) :
    h.lift (ix2 b q) k = ix3 b q (⟨k.val, k.isLt⟩ : Fin 20) := by
  funext c; apply Fin.ext
  fin_cases c <;> rfl

/-- From −∞ a reduce with a maximum body over the class axis, at (b, q), is the row's maximum. -/
theorem reduce_max_row (y : (⟨S256x300x20, .f32⟩ : BufTy).Contents (Elt Ideal)) (b : Fin 256) (q : Fin 300) :
    Host.reduce (FloatOps.maximumf (F := Ideal) (φ := .f32)) y (val_main_call1_cst (F := Ideal)) reducesTo_S256x300x20_S256x300_d2 h_S_ (ix2 b q)
      = Cert.Proto.rowMax (fun c' => y (ix3 b q c')) := by
  have h : S256x300x20.Reduces [2] S256x300 := by decide
  refine (Host.reduce_eq_fold_single (FloatOps.maximumf (F := Ideal) (φ := .f32)) y (val_main_call1_cst (F := Ideal))
    reducesTo_S256x300x20_S256x300_d2 h h_S_ (ix2 b q)).trans ?_
  have hf : (y ∘ h.lift (ix2 b q)) = fun k : Fin 20 => y (ix3 b q k) := funext fun k => congrArg y (lift_ix3 h b q k)
  have hi : val_main_call1_cst (F := Ideal) (Shape.Idx.first h_S_) = (⊥ : EReal) := by
    rw [val_main_call1_cst_apply, Ideal.ofBits_def]; exact Cert.Proto.Consts.ofBits_neg_inf
  unfold Cert.Proto.rowMax
  rw [hi]
  exact congrArg (fun f => Finset.fold max (⊥ : EReal) f (Finset.univ : Finset (Fin 20))) hf

/-- The row maximum of the logits, as the program's reduce computes it. -/
theorem rowMax_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) :
    val_main_call1_v0 (F := Ideal) x0 x1 x2 (ix2 b q) = Cert.Proto.rowMax (fun c' => val_main_v19 (F := Ideal) x0 x1 x2 (ix3 b q c')) := by
  unfold val_main_call1_v0
  exact reduce_max_row (val_main_v19 (F := Ideal) x0 x1 x2) b q

/-- The maximum with a broadcast −∞ changes nothing: max ⊥ m = m. -/
theorem rowMaxGuarded_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) :
    val_main_call1_v2 (F := Ideal) x0 x1 x2 (ix2 b q) = Cert.Proto.rowMax (fun c' => val_main_v19 (F := Ideal) x0 x1 x2 (ix3 b q c')) := by
  rw [val_main_call1_v2_apply, val_main_call1_v1_apply, val_main_call1_cst_0_apply, rowMax_apply, Ideal.maximumf_def, Ideal.ofBits_def,
    Cert.Proto.Consts.ofBits_neg_inf]
  exact max_eq_right bot_le

/-! ## The shifted logits, the sum of their exponentials, and the result -/

/-- Broadcasting [256,300] to [256,300,1] to [256,300,20] reads (b, q, c) at (b, q). -/
theorem idx_shift (b : Fin 256) (q : Fin 300) (c : Fin 20) :
    idx_main_call1_v3 (idx_main_call1_v4 (ix3 b q c)) = ix2 b q :=
  funext fun a => Fin.ext (by match a with | ⟨0, _⟩ => rfl | ⟨1, _⟩ => rfl)

/-- The same two broadcasts on the way back from the logarithm. -/
theorem idx_logsum (b : Fin 256) (q : Fin 300) (c : Fin 20) :
    idx_main_call1_v8 (idx_main_call1_v10 (ix3 b q c)) = ix2 b q :=
  funext fun a => Fin.ext (by match a with | ⟨0, _⟩ => rfl | ⟨1, _⟩ => rfl)

/-- The sum over the class axis at (b, q) reads its operand at (b, q, k). -/
theorem idx_sum (b : Fin 256) (q : Fin 300) (k : Fin 20) :
    idx_main_call1_v7 (ix2 b q) k = ix3 b q k :=
  funext fun a => Fin.ext (by match a with | ⟨0, _⟩ => rfl | ⟨1, _⟩ => rfl | ⟨2, _⟩ => rfl)

/-- The shifted logit: the logit minus its row's maximum. -/
theorem shifted_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) (c : Fin 20) :
    val_main_call1_v5 (F := Ideal) x0 x1 x2 (ix3 b q c)
      = val_main_v19 (F := Ideal) x0 x1 x2 (ix3 b q c) - Cert.Proto.rowMax (fun c' => val_main_v19 (F := Ideal) x0 x1 x2 (ix3 b q c')) := by
  rw [val_main_call1_v5_apply, val_main_call1_v4_apply, val_main_call1_v3_apply, idx_shift, rowMaxGuarded_apply, Ideal.subf_def]

/-- The sum over the classes of the exponentials of the shifted logits. -/
theorem sumExp_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) :
    val_main_call1_v7 (F := Ideal) x0 x1 x2 (ix2 b q)
      = ∑ c' : Fin 20, Ideal.exp (val_main_v19 (F := Ideal) x0 x1 x2 (ix3 b q c') - Cert.Proto.rowMax (fun c' => val_main_v19 (F := Ideal) x0 x1 x2 (ix3 b q c'))) := by
  rw [val_main_call1_v7_apply, val_main_call1_cst_1_apply, Ideal.ofBits_def, Cert.Proto.Consts.ofBits_zero, zero_add]
  refine Finset.sum_congr rfl fun k _ => ?_
  rw [idx_sum, val_main_call1_v6_apply, shifted_apply, Ideal.hostUnary_exp_def]

/-- The logarithm of that sum, broadcast back over the classes. -/
theorem logSumExp_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) (c : Fin 20) :
    val_main_call1_v10 (F := Ideal) x0 x1 x2 (ix3 b q c)
      = Ideal.log (∑ c' : Fin 20, Ideal.exp (val_main_v19 (F := Ideal) x0 x1 x2 (ix3 b q c') - Cert.Proto.rowMax (fun c' => val_main_v19 (F := Ideal) x0 x1 x2 (ix3 b q c')))) := by
  rw [val_main_call1_v10_apply, val_main_call1_v9_apply, val_main_call1_v8_apply, idx_logsum, sumExp_apply, Ideal.hostUnary_log_def]

end Logp

/-- The log-probabilities at (b, q, c), over the logits' row. -/
theorem logp_apply (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (b : Fin 256) (q : Fin 300) (c : Fin 20) :
    val_main_v20 (F := Ideal) x0 x1 x2 (ix3 b q c)
      = Cert.Proto.logSoftmax (fun c' => val_main_v19 (F := Ideal) x0 x1 x2 (ix3 b q c')) c := by
  rw [val_main_v20_apply, Logp.shifted_apply, Logp.logSumExp_apply, Ideal.subf_def]
  rfl

end Cert.ReferenceIdeal.RefValue

end
-- ==== Proof.RTail.lean ====
/-
  The reference's result over its log-probabilities: with every query label one of the 20 classes, the entry taken along the
  class axis is the log-probability at the label; its negation is averaged over the 300 queries and then over the 256 episodes.
-/
import proofs.«427852_j59596966199581_3_alg».proof.Proof.RefRead
import proofs.«427852_j59596966199581_3_alg».proof.Proof.Spec
import proofs.«427852_j59596966199581_3_alg».proof.Proof.Consts
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate

/-! ## The label words -/

/-- Every label word is below 20, at any index of the label array. -/
theorem lbl_lt (x3 : (⟨S256x300, .i32⟩ : BufTy).Contents (Elt Ideal))
    (hq : ∀ (b : Fin 256) (q : Fin 300), (x3 (ix2 b q)).toNat < 20) (j : S256x300.Idx) : (x3 j).toNat < 20 := by
  rw [eq_ix2 j]; exact hq (j 0) (j 1)

/-- A label below 20 is not negative, so the wrap of negative labels leaves it as it is. -/
theorem v4_eq (x3 : (⟨S256x300, .i32⟩ : BufTy).Contents (Elt Ideal))
    (hq : ∀ (b : Fin 256) (q : Fin 300), (x3 (ix2 b q)).toNat < 20) (i : S256x300x1.Idx) :
    val_main_call2_v4 (F := Ideal) x3 i = x3 (idx_main_v21 i) := by
  rw [val_main_call2_v4_apply, val_main_call2_v1_apply, val_main_v21_apply, val_main_call2_v0_apply, val_main_call2_c_apply]
  have h := lbl_lt x3 hq (idx_main_v21 i)
  have hc : IntOp.cmpi .slt (x3 (idx_main_v21 i)) 0#32 = 0#1 :=
    eq_zero_of_ne_one fun h1 => by
      have := (slt_iff_toNat (by omega) (by decide)).mp h1
      simp at this
  rw [hc, select_zero]

/-- The reshaped start index is the label. -/
theorem v5_eq (x3 : (⟨S256x300, .i32⟩ : BufTy).Contents (Elt Ideal))
    (hq : ∀ (b : Fin 256) (q : Fin 300), (x3 (ix2 b q)).toNat < 20) (i : S256x300x1x1.Idx) :
    val_main_call2_v5 (F := Ideal) x3 i = x3 (idx_main_v21 (idx_main_call2_v5 i)) := by
  rw [val_main_call2_v5_apply, v4_eq x3 hq]

/-- The range check 0 ≤ label ≤ 19 holds everywhere. -/
theorem v11_one (x3 : (⟨S256x300, .i32⟩ : BufTy).Contents (Elt Ideal))
    (hq : ∀ (b : Fin 256) (q : Fin 300), (x3 (ix2 b q)).toNat < 20) (i : S256x300x1x1.Idx) :
    val_main_call2_v11 (F := Ideal) x3 i = 1#1 := by
  rw [val_main_call2_v11_apply, val_main_call2_v7_apply, val_main_call2_v10_apply, v5_eq x3 hq, val_main_call2_v6_apply,
    val_main_call2_c_2_apply, val_main_call2_v9_apply, val_main_call2_v8_apply, val_main_call2_c_1_apply]
  have h := lbl_lt x3 hq (idx_main_v21 (idx_main_call2_v5 i))
  have h7 : IntOp.cmpi .sge (x3 (idx_main_v21 (idx_main_call2_v5 i))) 0#32 = 1#1 :=
    (sge_iff_toNat (by omega) (by decide)).mpr (by simp)
  have h10 : IntOp.cmpi .sle (x3 (idx_main_v21 (idx_main_call2_v5 i))) 19#32 = 1#1 :=
    (sle_iff_toNat (by omega) (by decide)).mpr (by simp; omega)
  rw [h7, h10]; rfl

/-- A left fold of the bitwise and over ones, from one, is one. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    have h1 : IntOp.andi (1#1 : BitVec 1) 1#1 = 1#1 := by decide
    rw [h1]; exact ih

/-- The range check reduced over the unit axis is true everywhere. -/
theorem v12_one (x3 : (⟨S256x300, .i32⟩ : BufTy).Contents (Elt Ideal))
    (hq : ∀ (b : Fin 256) (q : Fin 300), (x3 (ix2 b q)).toNat < 20) (i : S256x300x1.Idx) :
    val_main_call2_v12 (F := Ideal) x3 i = 1#1 := by
  unfold val_main_call2_v12
  rw [Host.reduce_eq_foldl, val_main_call2_c_3_apply]
  exact foldl_andi_one _ (v11_one x3 hq) _

/-! ## The entry taken along the class axis -/

/-- The gather with batching axes 0 and 1 and the class axis collapsed reads, at (b, q, 0), the operand at (b, q, t) when the
    start index there is a class number t: on the batching axes the operand index is the result's coordinate, on the class
    axis the start index clamped into [0, 19], which a class number already is. -/
theorem gather_at {α : Type} (lp : S256x300x20.Idx → α) (idx : IVec S256x300x1x1 32) (b : Fin 256) (q : Fin 300) (t : Fin 20)
    (ht : (idx (ix4 b q 0 0)).toNat = t.val) :
    Host.gather gather_S256x300x20_S256x300x1x1_S256x300x1_n_2_01_01_2_3_111 lp idx (ix3 b q 0) = lp (ix3 b q t) := by
  unfold Host.gather
  refine congrArg lp ?_
  funext a
  refine Fin.ext ?_
  match a with
  | ⟨0, _⟩ =>
    have h1 : gather_S256x300x20_S256x300x1x1_S256x300x1_n_2_01_01_2_3_111.start (ix3 b q (0 : Fin 1)) idx 0 = 0 := rfl
    have h2 : gather_S256x300x20_S256x300x1x1_S256x300x1_n_2_01_01_2_3_111.batchCoord (ix3 b q (0 : Fin 1)) 0 = b.val := rfl
    have h3 : gather_S256x300x20_S256x300x1x1_S256x300x1_n_2_01_01_2_3_111.offCoord (ix3 b q (0 : Fin 1)) 0 = 0 := rfl
    show gather_S256x300x20_S256x300x1x1_S256x300x1_n_2_01_01_2_3_111.start (ix3 b q (0 : Fin 1)) idx 0
      + gather_S256x300x20_S256x300x1x1_S256x300x1_n_2_01_01_2_3_111.batchCoord (ix3 b q (0 : Fin 1)) 0
      + gather_S256x300x20_S256x300x1x1_S256x300x1_n_2_01_01_2_3_111.offCoord (ix3 b q (0 : Fin 1)) 0 = b.val
    rw [h1, h2, h3]; omega
  | ⟨1, _⟩ =>
    have h1 : gather_S256x300x20_S256x300x1x1_S256x300x1_n_2_01_01_2_3_111.start (ix3 b q (0 : Fin 1)) idx 1 = 0 := rfl
    have h2 : gather_S256x300x20_S256x300x1x1_S256x300x1_n_2_01_01_2_3_111.batchCoord (ix3 b q (0 : Fin 1)) 1 = q.val := rfl
    have h3 : gather_S256x300x20_S256x300x1x1_S256x300x1_n_2_01_01_2_3_111.offCoord (ix3 b q (0 : Fin 1)) 1 = 0 := rfl
    show gather_S256x300x20_S256x300x1x1_S256x300x1_n_2_01_01_2_3_111.start (ix3 b q (0 : Fin 1)) idx 1
      + gather_S256x300x20_S256x300x1x1_S256x300x1_n_2_01_01_2_3_111.batchCoord (ix3 b q (0 : Fin 1)) 1
      + gather_S256x300x20_S256x300x1x1_S256x300x1_n_2_01_01_2_3_111.offCoord (ix3 b q (0 : Fin 1)) 1 = q.val
    rw [h1, h2, h3]; omega
  | ⟨2, _⟩ =>
    have hsi : gather_S256x300x20_S256x300x1x1_S256x300x1_n_2_01_01_2_3_111.siIdx (ix3 b q (0 : Fin 1)) ⟨0, by decide⟩
        = ix4 b q 0 0 := by
      funext e; refine Fin.ext ?_
      match e with
      | ⟨0, _⟩ => rfl
      | ⟨1, _⟩ => rfl
      | ⟨2, _⟩ => rfl
      | ⟨3, _⟩ => rfl
    have h1 : gather_S256x300x20_S256x300x1x1_S256x300x1_n_2_01_01_2_3_111.start (ix3 b q (0 : Fin 1)) idx 2
        = min (idx (gather_S256x300x20_S256x300x1x1_S256x300x1_n_2_01_01_2_3_111.siIdx (ix3 b q (0 : Fin 1)) ⟨0, by decide⟩)).toInt.toNat 19 := rfl
    have h2 : gather_S256x300x20_S256x300x1x1_S256x300x1_n_2_01_01_2_3_111.batchCoord (ix3 b q (0 : Fin 1)) 2 = 0 := rfl
    have h3 : gather_S256x300x20_S256x300x1x1_S256x300x1_n_2_01_01_2_3_111.offCoord (ix3 b q (0 : Fin 1)) 2 = 0 := rfl
    show gather_S256x300x20_S256x300x1x1_S256x300x1_n_2_01_01_2_3_111.start (ix3 b q (0 : Fin 1)) idx 2
      + gather_S256x300x20_S256x300x1x1_S256x300x1_n_2_01_01_2_3_111.batchCoord (ix3 b q (0 : Fin 1)) 2
      + gather_S256x300x20_S256x300x1x1_S256x300x1_n_2_01_01_2_3_111.offCoord (ix3 b q (0 : Fin 1)) 2 = t.val
    rw [h1, h2, h3, hsi]
    have hlt : t.val < 20 := t.isLt
    have hi : (idx (ix4 b q 0 0)).toInt = ((idx (ix4 b q 0 0)).toNat : Int) := toInt_eq_toNat_of_lt (by omega)
    rw [hi, ht]; simp only [Int.toNat_natCast]; omega

/-- The start index at (b, q, 0, 0) is the label of query q of episode b. -/
theorem v5_at (x3 : (⟨S256x300, .i32⟩ : BufTy).Contents (Elt Ideal))
    (hq : ∀ (b : Fin 256) (q : Fin 300), (x3 (ix2 b q)).toNat < 20) (b : Fin 256) (q : Fin 300) :
    val_main_call2_v5 (F := Ideal) x3 (ix4 b q 0 0) = x3 (ix2 b q) := by
  rw [v5_eq x3 hq]
  refine congrArg x3 ?_
  funext a; refine Fin.ext ?_
  have hb : b.val < 256 := b.isLt
  have hq' : q.val < 300 := q.isLt
  match a with
  | ⟨0, _⟩ => show (((b.val * 300 + q.val) * 1 + 0) * 1 + 0) / 300 = b.val; omega
  | ⟨1, _⟩ => show (((b.val * 300 + q.val) * 1 + 0) * 1 + 0) / 1 % 300 = q.val; omega

/-- The value taken along the class axis, at (b, q, 0): the log-probability at the label. -/
theorem v22_at (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (x3 : (⟨S256x300, .i32⟩ : BufTy).Contents (Elt Ideal))
    (hq : ∀ (b : Fin 256) (q : Fin 300), (x3 (ix2 b q)).toNat < 20) (b : Fin 256) (q : Fin 300) :
    val_main_v22 (F := Ideal) x0 x1 x2 x3 (ix3 b q 0)
      = val_main_v20 (F := Ideal) x0 x1 x2 (ix3 b q ⟨(x3 (ix2 b q)).toNat, hq b q⟩) := by
  rw [val_main_v22_apply, v12_one x3 hq, select_one]
  unfold val_main_call2_v13
  exact gather_at _ _ b q ⟨(x3 (ix2 b q)).toNat, hq b q⟩ (congrArg BitVec.toNat (v5_at x3 hq b q))

/-! ## The two means -/

/-- Minus the taken value at (b, q) is the query's loss. -/
theorem v24_at (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (x3 : (⟨S256x300, .i32⟩ : BufTy).Contents (Elt Ideal))
    (hq : ∀ (b : Fin 256) (q : Fin 300), (x3 (ix2 b q)).toNat < 20) (b : Fin 256) (q : Fin 300) :
    val_main_v24 (F := Ideal) x0 x1 x2 x3 (ix2 b q)
      = Cert.Proto.nllR (fun c => val_main_v20 (F := Ideal) x0 x1 x2 (ix3 b q c)) ⟨(x3 (ix2 b q)).toNat, hq b q⟩ := by
  have hi : idx_main_v23 (ix2 b q) = ix3 b q 0 := by
    funext a; refine Fin.ext ?_
    have hb : b.val < 256 := b.isLt
    have hq' : q.val < 300 := q.isLt
    match a with
    | ⟨0, _⟩ => show (b.val * 300 + q.val) / 300 = b.val; omega
    | ⟨1, _⟩ => show (b.val * 300 + q.val) / 1 % 300 = q.val; omega
    | ⟨2, _⟩ => rfl
  rw [val_main_v24_apply, val_main_v23_apply, hi, v22_at x0 x1 x2 x3 hq]
  simp only [Ideal.hostNegf_def, Ideal.negf_def, Cert.Proto.nllR]

/-- The sum over the queries of episode b. -/
theorem v25_at (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (x3 : (⟨S256x300, .i32⟩ : BufTy).Contents (Elt Ideal))
    (hq : ∀ (b : Fin 256) (q : Fin 300), (x3 (ix2 b q)).toNat < 20) (b : Fin 256) :
    val_main_v25 (F := Ideal) x0 x1 x2 x3 (ix1 b)
      = ∑ q : Fin 300, Cert.Proto.nllR (fun c => val_main_v20 (F := Ideal) x0 x1 x2 (ix3 b q c)) ⟨(x3 (ix2 b q)).toNat, hq b q⟩ := by
  rw [val_main_v25_apply, val_main_cst_3_apply, Ideal.ofBits_def, Cert.Proto.Consts.ofBits_zero, zero_add]
  refine Finset.sum_congr rfl fun q _ => ?_
  have hi : idx_main_v25 (ix1 b) q = ix2 b q := by
    funext a; refine Fin.ext ?_
    match a with
    | ⟨0, _⟩ => rfl
    | ⟨1, _⟩ => rfl
  rw [hi, v24_at x0 x1 x2 x3 hq]

/-- The mean over the queries of episode b. -/
theorem v27_at (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (x3 : (⟨S256x300, .i32⟩ : BufTy).Contents (Elt Ideal))
    (hq : ∀ (b : Fin 256) (q : Fin 300), (x3 (ix2 b q)).toNat < 20) (b : Fin 256) :
    val_main_v27 (F := Ideal) x0 x1 x2 x3 (ix1 b)
      = Ideal.div (∑ q : Fin 300, Cert.Proto.nllR (fun c => val_main_v20 (F := Ideal) x0 x1 x2 (ix3 b q c)) ⟨(x3 (ix2 b q)).toNat, hq b q⟩)
          ((300 : ℝ) : EReal) := by
  rw [val_main_v27_apply, val_main_v26_apply, val_main_cst_4_apply, Ideal.hostDivf_def, Ideal.ofBits_def,
    Cert.Proto.Consts.ofBits_300, v25_at x0 x1 x2 x3 hq]

/-- A sum over the rank-1 index set of extent 256 is the sum over its coordinate. -/
theorem sum_idx1_256 {M : Type} [AddCommMonoid M] (f : S256.Idx → M) : ∑ j, f j = ∑ b : Fin 256, f (ix1 b) :=
  Fintype.sum_equiv
    { toFun := fun j => (j 0 : Fin 256), invFun := fun b => ix1 b, left_inv := fun j => (eq_ix1 j).symm, right_inv := fun _ => rfl }
    f (fun b => f (ix1 b)) fun j => congrArg f (eq_ix1 j)

/-- The result as the mean over the episodes of the mean over the queries of minus the log-probability at the label. -/
theorem tail_eq (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (x3 : (⟨S256x300, .i32⟩ : BufTy).Contents (Elt Ideal))
    (hq : ∀ (b : Fin 256) (q : Fin 300), (x3 (ix2 b q)).toNat < 20) :
    val_main_v29 (F := Ideal) x0 x1 x2 x3
      = fun _ => Cert.Proto.lossOf fun b =>
          Ideal.div (∑ q : Fin 300, Cert.Proto.nllR (fun c => val_main_v20 (F := Ideal) x0 x1 x2 (ix3 b q c)) ⟨(x3 (ix2 b q)).toNat, hq b q⟩)
            ((300 : ℝ) : EReal) := by
  funext i
  rw [val_main_v29_apply, val_main_v28_apply, val_main_cst_5_apply, val_main_cst_6_apply, Ideal.hostDivf_def, Ideal.ofBits_def,
    Ideal.ofBits_def, Cert.Proto.Consts.ofBits_zero, Cert.Proto.Consts.ofBits_256, zero_add, sum_idx1_256]
  unfold Cert.Proto.lossOf
  refine congrArg (fun s => Ideal.div s ((256 : ℝ) : EReal)) ?_
  exact Finset.sum_congr rfl fun b _ => v27_at x0 x1 x2 x3 hq b

end Cert.ReferenceIdeal.RefValue

end
-- ==== Proof.RVal.lean ====
/-
  The reference's result as the mean over the episodes of the reference's loss of each episode (Spec.lean's `episodeR`),
  where every query label is one of the 20 classes: the tail of the program over the log-probabilities, the log-probabilities
  over the logits, the logits over the arguments.
-/
import proofs.«427852_j59596966199581_3_alg».proof.Proof.RLogits
import proofs.«427852_j59596966199581_3_alg».proof.Proof.RLogp
import proofs.«427852_j59596966199581_3_alg».proof.Proof.RTail

noncomputable section

namespace Cert.ReferenceIdeal.RefValue

open Cert.ReferenceIdeal Cert.ReferenceIdeal.Gen Cert.ReferenceIdeal.ReadP Idealize.ShloMosaic Idealize.ShloMosaic.ValueIdx

/-- The reference's result over the argument arrays. -/
theorem val_eq (x0 : (⟨S256x100x640, .f32⟩ : BufTy).Contents (Elt Ideal)) (x1 : (⟨S256x300x640, .f32⟩ : BufTy).Contents (Elt Ideal))
    (x2 : (⟨S256x100, .i32⟩ : BufTy).Contents (Elt Ideal)) (x3 : (⟨S256x300, .i32⟩ : BufTy).Contents (Elt Ideal))
    (hq : ∀ (b : Fin 256) (q : Fin 300), (x3 (ix2 b q)).toNat < 20) :
    val_main_v29 (F := Ideal) x0 x1 x2 x3
      = fun _ => Cert.Proto.lossOf fun b =>
          Cert.Proto.episodeR (fun s => x2 (ix2 b s)) (fun s d => x0 (ix3 b s d)) (fun q => ⟨(x3 (ix2 b q)).toNat, hq b q⟩)
            (fun q d => x1 (ix3 b q d)) := by
  rw [tail_eq x0 x1 x2 x3 hq]
  funext _
  unfold Cert.Proto.episodeR
  refine congrArg Cert.Proto.lossOf (funext fun b => ?_)
  refine congrArg (fun s => Ideal.div s ((300 : ℝ) : EReal)) (Finset.sum_congr rfl fun q _ => ?_)
  refine congrArg (fun lp => Cert.Proto.nllR lp _) (funext fun c => ?_)
  rw [logp_apply]
  refine congrArg (fun a => Cert.Proto.logSoftmax a c) (funext fun c' => ?_)
  exact logits_apply x0 x1 x2 b q c'

end Cert.ReferenceIdeal.RefValue

end
-- ==== Proof.PreFacts.lean ====
/-
  What the precondition says of the four argument arrays: every support and query coordinate is a real number; every
  query label is one of the 20 classes; in every episode every class has at least one support vector.
-/
import proofs.«427852_j59596966199581_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Proto.PreFacts

open Idealize.ShloMosaic Idealize.ShloMosaic.ValueIdx Cert.Pre_finite_inputs

/-! ## One-bit words and folds -/

/-- The scalar shape has one index. -/
instance subsingleton_S_ : Subsingleton S_.Idx := ⟨fun a b => funext fun d => d.elim0⟩

theorem ofBool_eq_one {b : Bool} : BitVec.ofBool b = 1#1 ↔ b = true := by cases b <;> decide

/-- The conjunction of two one-bit arrays, read at an index. -/
theorem andi_at {s : Shape} (x y : IVec s 1) (i : s.Idx) : andi x y i = IntOp.andi (x i) (y i) := rfl

/-- A left fold by `or` over one-bit words that came out 1 either started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from 0 that is 1 at `j` had a 1 at some operand index that reduces into `j`. -/
theorem reduce_ori_eq_one {s t u : Shape} {axes : List (Fin s.rank)} (x : s.Idx → BitVec 1) (init : u.Idx → BitVec 1)
    (h : s.ReducesTo axes t) (hu : 0 < u.numel) (h0 : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with hi | ⟨i, hi, hx⟩
  · rw [h0] at hi; exact absurd hi (by decide)
  · rw [List.mem_filter] at hi
    exact ⟨i, by simpa using hi.2, hx⟩

/-! ## The element facts -/

/-- The pattern 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) :
    ∃ r : ℝ, x = (r : EReal) := by
  rw [ofBits_inf] at h
  have h' : max x (-x) < ⊤ := by simpa [Ideal.cmp, ofBool_eq_one] using h
  induction x using EReal.rec with
  | bot => simp at h'
  | coe r => exact ⟨r, rfl⟩
  | top => simp at h'

/-- A 32-bit word that is signed-at-least 0 and signed-below 20 has a value below 20. -/
theorem toNat_lt_of_range (w : BitVec 32)
    (h : IntOp.andi (IntOp.cmpi .sge w 0#32) (IntOp.cmpi .slt w 20#32) = 1#1) : w.toNat < 20 := by
  obtain ⟨h1, h2⟩ := IntOp.andi_eq_one.1 h
  rw [IntOp.cmpi_sge] at h1
  rw [IntOp.cmpi_slt] at h2
  have e0 : (0#32 : BitVec 32).toInt = 0 := by decide
  have e20 : (20#32 : BitVec 32).toInt = 20 := by decide
  rw [e0] at h1
  rw [e20] at h2
  rw [BitVec.toInt_eq_toNat_cond] at h1 h2
  have := w.isLt
  split at h1 <;> omega

variable [Cert.Pre_finite_inputs.Facts]

/-- The support labels laid along a trailing unit axis and then along the 20 classes read, at (b, s, c), the label at (b, s). -/
theorem labels_at (x : IVec S256x100 32) (b : Fin 256) (s : Fin 100) (c : Fin 20) :
    broadcastInDim S256x100x20 ![0, 1, 2] Facts.bcast_S256x100x1_S256x100x20_0_1_2
      (broadcastInDim S256x100x1 ![0, 1] Facts.bcast_S256x100_S256x100x1_0_1 x) (ix3 b s c) = x (ix2 b s) := by
  unfold broadcastInDim
  refine congrArg x (funext fun a => ?_)
  match a with
  | ⟨0, _⟩ => rfl
  | ⟨1, _⟩ => rfl

/-- The class numbers 0 … 19 laid along the episodes and the support vectors read, at (b, s, c), the number c. -/
theorem classes_at (b : Fin 256) (s : Fin 100) (c : Fin 20) :
    broadcastInDim S256x100x20 ![0, 1, 2] Facts.bcast_S1x1x20_S256x100x20_0_1_2 (iotaInDim S1x1x20 32 2) (ix3 b s c)
      = BitVec.ofNat 32 c.val := rfl

/-- The precondition read back, conjunct by conjunct. -/
theorem of_pre (a0 : FVec Ideal S256x100x640 .f32) (a1 : FVec Ideal S256x300x640 .f32) (a2 : IVec S256x100 32) (a3 : IVec S256x300 32)
    (h : Cert.Pre_finite_inputs.fn (F := Ideal) a0 a1 a2 a3 = fun _ => 1#1) :
    (∀ i, ∃ r : ℝ, a0 i = (r : EReal)) ∧ (∀ i, ∃ r : ℝ, a1 i = (r : EReal))
    ∧ (∀ (b : Fin 256) (c : Fin 20), ∃ s : Fin 100, a2 (ix2 b s) = BitVec.ofNat 32 c.val)
    ∧ (∀ (b : Fin 256) (q : Fin 300), (a3 (ix2 b q)).toNat < 20) := by
  have h0 := congrFun h ValueIdx.ix0
  dsimp only [Cert.Pre_finite_inputs.fn, Cert.Pre_finite_inputs.fn_part1] at h0
  rw [andi_at, andi_at, andi_at, IntOp.andi_eq_one, IntOp.andi_eq_one, IntOp.andi_eq_one] at h0
  obtain ⟨⟨⟨h1, h2⟩, h3⟩, h4⟩ := h0
  refine ⟨fun i => ?_, fun i => ?_, fun b c => ?_, fun b q => ?_⟩
  · exact real_of_abs_lt _ (Host.reduce_andi_all _ _ _ _ _ h1 i)
  · exact real_of_abs_lt _ (Host.reduce_andi_all _ _ _ _ _ h2 i)
  · have h5 := Host.reduce_andi_all _ _ _ _ _ h4 (ix2 b c)
    obtain ⟨i, hdrop, hE⟩ := reduce_ori_eq_one _ _ Facts.reducesTo_S256x100x20_S256x20_d1 Facts.h_S_ rfl _ h5
    obtain ⟨p, s, k, rfl⟩ : ∃ p s k, i = ix3 p s k := ⟨i 0, i 1, i 2, eq_ix3 i⟩
    have hp : p = b := by
      have e := Shape.ReducesTo.drop_apply_val_of_eq Facts.reducesTo_S256x100x20_S256x20_d1 (ix3 p s k) 0 0
      rw [hdrop] at e
      exact Fin.ext e.symm
    have hk : k = c := by
      have e := Shape.ReducesTo.drop_apply_val_of_eq Facts.reducesTo_S256x100x20_S256x20_d1 (ix3 p s k) 1 2
      rw [hdrop] at e
      exact Fin.ext e.symm
    subst hp hk
    have hE' := IntOp.cmpi_eq.1 hE
    rw [labels_at, classes_at] at hE'
    exact ⟨s, hE'⟩
  · exact toNat_lt_of_range _ (Host.reduce_andi_all _ _ _ _ _ h3 (ix2 b q))

end Cert.Proto.PreFacts

end
-- ==== Proof.Real.lean ====
/-
  Where every support and query coordinate is a real number and every class has a support vector, the two programs'
  prototypes are the same real numbers, and the reference's logit is the kernel's minus the real number ‖q‖².
-/
import proofs.«427852_j59596966199581_3_alg».proof.Proof.Spec

noncomputable section

namespace Cert.Proto

open Idealize.ShloMosaic

/-! ### The count of a class that is present -/

/-- A one-hot weight is 0 or 1, so it is not negative. -/
theorem oh_nonneg (t : BitVec 32) (c : Fin 20) : 0 ≤ oh t c := by
  unfold oh
  split_ifs
  · exact zero_le_one
  · exact le_refl _

/-- A class that some support label names has a count of at least 1: the count is a sum of weights that are not
    negative, and that label's weight is 1. -/
theorem one_le_cnt (ts : Fin 100 → BitVec 32) (c : Fin 20) (h : ∃ s : Fin 100, ts s = BitVec.ofNat 32 c.val) :
    1 ≤ cnt ts c := by
  obtain ⟨s, hs⟩ := h
  have h1 : oh (ts s) c = 1 := by simp [oh, hs]
  have h2 : oh (ts s) c ≤ ∑ s' : Fin 100, oh (ts s') c :=
    Finset.single_le_sum (f := fun s' => oh (ts s') c) (fun i _ => oh_nonneg _ _) (Finset.mem_univ s)
  rw [h1] at h2
  exact h2

/-- A class with a support vector has a count of at least 1, so the kernel's guard changes nothing: the two prototypes agree. -/
theorem protoK_eq_protoR (ts : Fin 100 → BitVec 32) (sup : Fin 100 → Fin 640 → EReal)
    (hts : ∀ c : Fin 20, ∃ s : Fin 100, ts s = BitVec.ofNat 32 c.val) : protoK ts sup = protoR ts sup := by
  funext c d
  unfold protoK protoR
  rw [max_eq_left (one_le_cnt ts c (hts c))]

/-! ### Being a real number -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- A one-hot weight is a real number. -/
theorem isReal_oh (t : BitVec 32) (c : Fin 20) : IsReal (oh t c) := by
  unfold oh
  split_ifs
  · exact ⟨1, EReal.coe_one.symm⟩
  · exact ⟨0, EReal.coe_zero.symm⟩

theorem isReal_cnt (ts : Fin 100 → BitVec 32) (c : Fin 20) : IsReal (cnt ts c) :=
  IsReal.sum _ _ fun s _ => isReal_oh (ts s) c

theorem isReal_psum (ts : Fin 100 → BitVec 32) (sup : Fin 100 → Fin 640 → EReal)
    (hsup : ∀ s d, ∃ r : ℝ, sup s d = (r : EReal)) (c : Fin 20) (d : Fin 640) : IsReal (psum ts sup c d) :=
  IsReal.sum _ _ fun s _ => (isReal_oh (ts s) c).mul (hsup s d)

/-- The quotient of a real number by a real number that is not zero is a real number. -/
theorem IsReal.div {x y : EReal} (hx : IsReal x) (hy : IsReal y) (h0 : y ≠ 0) : IsReal (Ideal.div x y) := by
  obtain ⟨b, rfl⟩ := hy
  have hb : b ≠ 0 := fun e => h0 (by rw [e, EReal.coe_zero])
  rw [Ideal.div_coe hb]
  exact hx.mul ⟨1 / b, rfl⟩

/-- The reference's prototype of a class that is present is a real number: its count is a real number of at least 1. -/
theorem isReal_protoR (ts : Fin 100 → BitVec 32) (sup : Fin 100 → Fin 640 → EReal)
    (hsup : ∀ s d, ∃ r : ℝ, sup s d = (r : EReal))
    (hts : ∀ c : Fin 20, ∃ s : Fin 100, ts s = BitVec.ofNat 32 c.val) (c : Fin 20) (d : Fin 640) :
    IsReal (protoR ts sup c d) := by
  unfold protoR
  refine (isReal_psum ts sup hsup c d).div (isReal_cnt ts c) ?_
  intro e
  have h1 := one_le_cnt ts c (hts c)
  rw [e] at h1
  exact absurd h1 (not_le.mpr zero_lt_one)

/-! ### The logit -/

/-- Over the reals, −((r + x) − y) is (0 − (x − y)) − r. -/
theorem neg_shift (r x y : ℝ) :
    -(((r : EReal) + (x : EReal)) - (y : EReal)) = (0 - ((x : EReal) - (y : EReal))) - (r : EReal) := by
  rw [← EReal.coe_add, ← EReal.coe_sub, ← EReal.coe_neg, ← EReal.coe_sub, ← EReal.coe_zero, ← EReal.coe_sub,
    ← EReal.coe_sub]
  congr 1
  ring

/-- The reference's logit is the kernel's minus ‖q‖², and ‖q‖² is a real number. -/
theorem logitR_eq (ts : Fin 100 → BitVec 32) (sup : Fin 100 → Fin 640 → EReal) (qr : Fin 300 → Fin 640 → EReal)
    (hsup : ∀ s d, ∃ r : ℝ, sup s d = (r : EReal)) (hqr : ∀ q d, ∃ r : ℝ, qr q d = (r : EReal))
    (hts : ∀ c : Fin 20, ∃ s : Fin 100, ts s = BitVec.ofNat 32 c.val) (q : Fin 300) :
    ∃ r : ℝ, logitR (protoR ts sup) qr q = fun c => logitK (protoK ts sup) qr q c - (r : EReal) := by
  have hq : IsReal (qsq qr q) := IsReal.sum _ _ fun d _ => IsReal.mul (hqr q d) (hqr q d)
  obtain ⟨r, hr⟩ := hq
  refine ⟨r, ?_⟩
  rw [protoK_eq_protoR ts sup hts]
  funext c
  have hp : ∀ d, IsReal (protoR ts sup c d) := isReal_protoR ts sup hsup hts c
  have hx : IsReal (psq (protoR ts sup) c) := IsReal.sum _ _ fun d _ => (hp d).mul (hp d)
  have hy : IsReal (((2 : ℝ) : EReal) * cross qr (protoR ts sup) q c) :=
    IsReal.mul ⟨2, rfl⟩ (IsReal.sum _ _ fun d _ => IsReal.mul (hqr q d) (hp d))
  obtain ⟨x, hx⟩ := hx
  obtain ⟨y, hy⟩ := hy
  unfold logitR logitK
  rw [hr, hx, hy]
  exact neg_shift r x y

end Cert.Proto

end
-- ==== Proof.Softmax.lean ====
/-
  The log-softmax of a row does not change when a real number is subtracted from every entry; and the one-hot weighted sum
  of a row at a class's own label word is the row's entry at that class.
-/
import proofs.«427852_j59596966199581_3_alg».proof.Proof.Spec

noncomputable section

namespace Cert.Proto

open Idealize.ShloMosaic

/-- Subtracting a real number is monotone on the extended reals, so it commutes with the maximum of two. -/
theorem max_sub_real (x y : EReal) (r : ℝ) : max x y - (r : EReal) = max (x - (r : EReal)) (y - (r : EReal)) := by
  have hm : Monotone (fun z : EReal => z - (r : EReal)) := fun u v h => EReal.sub_le_sub h le_rfl
  exact hm.map_max

/-- The maximum of a row with a real number taken off every entry is the row's maximum with that number taken off:
    the fold starts at −∞, which stays −∞. -/
theorem rowMax_sub_real (a : Fin 20 → EReal) (r : ℝ) : rowMax (fun c => a c - (r : EReal)) = rowMax a - (r : EReal) := by
  unfold rowMax
  have h := Finset.fold_hom (op := max) (op' := max) (s := (Finset.univ : Finset (Fin 20))) (b := (⊥ : EReal)) (f := a)
    (m := fun z : EReal => z - (r : EReal)) (fun x y => max_sub_real x y r)
  simpa [EReal.bot_sub] using h

/-- Taking the same real number off both sides of a difference does not change it, whatever the two extended reals are. -/
theorem sub_real_sub_sub_real (x y : EReal) (r : ℝ) : (x - (r : EReal)) - (y - (r : EReal)) = x - y := by
  induction x using EReal.rec with
  | bot => simp [EReal.bot_sub]
  | top =>
    induction y using EReal.rec with
    | bot => simp [EReal.bot_sub, EReal.top_sub_coe]
    | top => simp [EReal.top_sub_coe]
    | coe y =>
      rw [EReal.top_sub_coe, ← EReal.coe_sub, EReal.top_sub_coe, EReal.top_sub_coe]
  | coe x =>
    induction y using EReal.rec with
    | bot => simp [EReal.bot_sub, ← EReal.coe_sub]
    | top => simp [← EReal.coe_sub]
    | coe y =>
      norm_cast
      ring

/-- Subtracting a real number from every entry of a row leaves its log-softmax as it was. -/
theorem logSoftmax_sub_real (a : Fin 20 → EReal) (r : ℝ) : logSoftmax (fun c => a c - (r : EReal)) = logSoftmax a := by
  funext c
  unfold logSoftmax
  simp only [rowMax_sub_real, sub_real_sub_sub_real]

/-- The label word of class `t` is the label word of class `c` only when `c` is `t`: both numbers are below 2³². -/
theorem ofNat_eq_ofNat_iff (t c : Fin 20) : BitVec.ofNat 32 t.val = BitVec.ofNat 32 c.val ↔ c = t := by
  constructor
  · intro h
    have h' := congrArg BitVec.toNat h
    simp only [BitVec.toNat_ofNat] at h'
    have ht : t.val < 20 := t.isLt
    have hc : c.val < 20 := c.isLt
    rw [Nat.mod_eq_of_lt (by omega), Nat.mod_eq_of_lt (by omega)] at h'
    exact Fin.ext h'.symm
  · intro h
    rw [h]

/-- The kernel's loss of a query whose label word is class `t`'s number is the reference's loss at `t`. -/
theorem nllK_eq_nllR (lp : Fin 20 → EReal) (t : Fin 20) : nllK lp (BitVec.ofNat 32 t.val) = nllR lp t := by
  unfold nllK nllR oh
  have hsum : (∑ c : Fin 20, lp c * (if BitVec.ofNat 32 t.val = BitVec.ofNat 32 c.val then (1 : EReal) else 0)) = lp t := by
    rw [Finset.sum_eq_single t]
    · simp
    · intro c _ hc
      have : ¬ (BitVec.ofNat 32 t.val = BitVec.ofNat 32 c.val) := fun h => hc ((ofNat_eq_ofNat_iff t c).mp h)
      simp [this]
    · intro h
      exact absurd (Finset.mem_univ t) h
  rw [hsum, zero_sub]

end Cert.Proto

end
-- ==== Proof.Bridge.lean ====
/-
  Under the precondition's facts the kernel's loss of an episode is the reference's.
-/
import proofs.«427852_j59596966199581_3_alg».proof.Proof.Real
import proofs.«427852_j59596966199581_3_alg».proof.Proof.Softmax

noncomputable section

namespace Cert.Proto

open Idealize.ShloMosaic

/-- The two losses of an episode agree: the prototypes agree, the logits differ by the real number ‖q‖², which the
    log-softmax does not see, and the one-hot sum picks the label's entry. -/
theorem episode_eq (ts : Fin 100 → BitVec 32) (sup : Fin 100 → Fin 640 → EReal) (tq : Fin 300 → BitVec 32) (tqF : Fin 300 → Fin 20)
    (qr : Fin 300 → Fin 640 → EReal)
    (hsup : ∀ s d, ∃ r : ℝ, sup s d = (r : EReal)) (hqr : ∀ q d, ∃ r : ℝ, qr q d = (r : EReal))
    (hts : ∀ c : Fin 20, ∃ s : Fin 100, ts s = BitVec.ofNat 32 c.val)
    (htq : ∀ q, tq q = BitVec.ofNat 32 (tqF q).val) :
    episodeK ts sup tq qr = episodeR ts sup tqF qr := by
  unfold episodeK episodeR
  congr 1
  refine Finset.sum_congr rfl fun q _ => ?_
  obtain ⟨r, hr⟩ := logitR_eq ts sup qr hsup hqr hts q
  rw [htq q, nllK_eq_nllR, hr, logSoftmax_sub_real]

end Cert.Proto

end
-- ==== Proof.lean ====
/-
  The certificate of the fused prototypical-loss kernel against its jnp reference.

  Both programs take 256 episodes of 100 labelled support vectors and 300 labelled query vectors of dimension 640 over 20
  classes and return one number: the mean over the episodes of the mean over an episode's queries of minus the
  log-probability, under a softmax over minus the squared distances to the class prototypes, of the query's own class.
  The kernel differs from the reference in three places. It divides a class's sum of support vectors by `max count 1`; the
  precondition says every class has a support vector in every episode, so the count is at least 1 and the guard does nothing.
  It leaves ‖q‖² out of the squared distance; that is a real number constant along the class axis (every input coordinate is
  a real number), and the log-softmax, which subtracts the row's maximum first, does not see it. It takes the log-probability
  at the label as a one-hot weighted sum over the classes; the precondition says every query label is one of the 20 classes,
  where the reference's take-along-axis reads exactly that entry, and a sum with one nonzero weight is that entry.

  The frames of the two kernel programs are the generated ones; the reference's frame and value come from its run read
  stretch by stretch; the kernel's value is read off its frame run: each grid point's block holds, row by row, the loss of one
  episode, and the host lines after the region average the 256 rows.
-/
import proofs.«427852_j59596966199581_3_alg».proof.Defs
import proofs.«427852_j59596966199581_3_alg».proof.Proof.Gen.Kernel
import proofs.«427852_j59596966199581_3_alg».proof.Proof.Gen.Kernel.Skeleton
import proofs.«427852_j59596966199581_3_alg».proof.Proof.Gen.Kernel.Loops
import proofs.«427852_j59596966199581_3_alg».proof.Proof.Gen.Kernel.Launch
import proofs.«427852_j59596966199581_3_alg».proof.Proof.Gen.Kernel.Points
import proofs.«427852_j59596966199581_3_alg».proof.Proof.Gen.Kernel.Frame
import proofs.«427852_j59596966199581_3_alg».proof.Proof.Gen.KernelIdeal
import proofs.«427852_j59596966199581_3_alg».proof.Proof.Gen.KernelIdeal.Skeleton
import proofs.«427852_j59596966199581_3_alg».proof.Proof.Gen.KernelIdeal.Loops
import proofs.«427852_j59596966199581_3_alg».proof.Proof.Gen.KernelIdeal.Launch
import proofs.«427852_j59596966199581_3_alg».proof.Proof.Gen.KernelIdeal.Points
import proofs.«427852_j59596966199581_3_alg».proof.Proof.Gen.KernelIdeal.Frame
import proofs.«427852_j59596966199581_3_alg».proof.Proof.Gen.ReferenceIdeal
import proofs.«427852_j59596966199581_3_alg».proof.Proof.Gen.Pre_finite_inputs
import proofs.«427852_j59596966199581_3_alg».proof.Proof.KArr
import proofs.«427852_j59596966199581_3_alg».proof.Proof.KPay
import proofs.«427852_j59596966199581_3_alg».proof.Proof.RefRunH
import proofs.«427852_j59596966199581_3_alg».proof.Proof.RVal
import proofs.«427852_j59596966199581_3_alg».proof.Proof.PreFacts
import proofs.«427852_j59596966199581_3_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_kernel : @Cert.frame_Kernel Cert.Kernel.Gen.facts Cert.Pre_finite_inputs.Gen.facts :=
  fun m ρ _ => Cert.Kernel.Gen.frame m ρ

/-- The idealized kernel runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RunH.run (F := Ideal) m ρ)

/-- The two results agree: episode by episode the kernel's loss is the reference's. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2]
  obtain ⟨h0, h1, h2, h3⟩ := Cert.Proto.PreFacts.of_pre _ _ _ _ (hpre c)
  rw [Cert.ReferenceIdeal.RefValue.val_eq _ _ _ _ h3]
  funext _
  unfold Cert.KernelIdeal.KV.result
  refine congrArg Cert.Proto.lossOf (funext fun b => ?_)
  rw [Cert.KernelIdeal.KV.payAt_eq]
  exact (Cert.Proto.episode_eq _ _ _ _ _ (fun s d => h0 _) (fun q d => h1 _) (h2 b)
    (fun q => ((BitVec.ofNat_toNat 32 _).trans (BitVec.setWidth_eq _)).symm)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
